-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x128 .f32) (main_arg1 : FVec F S131072x128 .f32) (main_arg2 : FVec F S128x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x128 : Shape := ⟨2, ![131072, 128]⟩
abbrev S128x128 : Shape := ⟨2, ![128, 128]⟩
abbrev S16x1x128 : Shape := ⟨3, ![16, 1, 128]⟩
abbrev S2048x128 : Shape := ⟨2, ![2048, 128]⟩
abbrev S1x1x128 : Shape := ⟨3, ![1, 1, 128]⟩
abbrev S128 : Shape := ⟨1, ![128]⟩
abbrev S128x1 : Shape := ⟨2, ![128, 1]⟩
abbrev S1x128 : Shape := ⟨2, ![1, 128]⟩
abbrev S2048 : Shape := ⟨1, ![2048]⟩
abbrev S2048x1 : Shape := ⟨2, ![2048, 1]⟩
abbrev S_ : Shape := ⟨0, ![]⟩

abbrev nBuf : Space → Nat
  | .hbm => 8
  | .vmem => 19
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x128, .f32⟩
  | .hbm, ⟨3, _⟩ => ⟨S16x1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S128x128, .f32⟩
  | .local _ .vmem, ⟨17, _⟩ => ⟨S1x1x128, .f32⟩
  | .local _ .vmem, ⟨18, _⟩ => ⟨S1x1x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c1_i32 : BitVec 32 := 1#32
  let v3 : BitVec 32 := Scalar.addi v2 c1_i32
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c2_i32 : BitVec 32 := 2#32
  let v3 : BitVec 32 := Scalar.addi v2 c2_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c3_i32 : BitVec 32 := 3#32
  let v3 : BitVec 32 := Scalar.addi v2 c3_i32
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c1_i32 : BitVec 32 := 1#32
  let v3 : BitVec 32 := Scalar.addi v2 c1_i32
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c2_i32 : BitVec 32 := 2#32
  let v3 : BitVec 32 := Scalar.addi v2 c2_i32
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli c4_i32 v1
  let c3_i32 : BitVec 32 := 3#32
  let v3 : BitVec 32 := Scalar.addi v2 c3_i32
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S128x128_S128x128_0_0 : ∀ a, (![0, 0] : Fin 2 → Nat) a + S128x128.size a ≤ S128x128.size a
  h_S128x128 : 0 < S128x128.numel
  reduces_S128x128_S128 : S128x128.Reduces [1] S128
  shapeCasts_S128_S128x1 : S128.ShapeCasts S128x1
  transposes_S128x1_p1_0_S1x128 : S128x1.Transposes [1, 0] S1x128
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  broadcasts_S1x128_S2048x128 : S1x128.Broadcasts S2048x128
  reduces_S2048x128_S128 : S2048x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  reducesTo_S16x1x128_S_d0_1_2 : S16x1x128.ReducesTo [0, 1, 2] S_
  h_S_ : 0 < S_.numel
  dot_S2048x128_S128x128_S2048x128_1_1_0_0_n_n_wf : DotDims.WF S2048x128 S128x128 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .f32 = 32 ∨ (Rect.block (s := S131072x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S16x1x128.size a
  hwx0_9 : ∀ i : grid0.Coords, EltTy.bits .f32 = 32 ∨ (Rect.block (s := S16x1x128) S1x1x128.size (cc0_transform_9 i) (hinb0_9 i)).WholeWords (EltTy.packing .f32)

variable [Facts₀]

def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S_ : Shape := ⟨0, ![]⟩
abbrev S131072 : Shape := ⟨1, ![131072]⟩
abbrev S128 : Shape := ⟨1, ![128]⟩
abbrev S131072x1 : Shape := ⟨2, ![131072, 1]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x128, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S128x128, .f32⟩
  | .hbm, ⟨7, _⟩ => ⟨S_, .f32⟩
  | .hbm, ⟨8, _⟩ => ⟨S128, .f32⟩
  | .hbm, ⟨9, _⟩ => ⟨S128x128, .f32⟩
  | .hbm, ⟨10, _⟩ => ⟨S131072x128, .f32⟩
  | .hbm, ⟨11, _⟩ => ⟨S131072x1, .f32⟩
  | .hbm, ⟨12, _⟩ => ⟨S1x128, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S_, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  reducesTo_S128x128_S128_d1 : S128x128.ReducesTo [1] S128
  transposes_S128x128_S128x128_1_0 : S128x128.Transposes [1, 0] S128x128
  bcast_S131072_S131072x1_0 : S131072.BroadcastsInDim S131072x1 (![0] : Fin 1 → Fin S131072x1.rank)
  bcast_S128_S1x128_1 : S128.BroadcastsInDim S1x128 (![1] : Fin 1 → Fin S1x128.rank)
  bcast_S131072x1_S131072x128_0_1 : S131072x1.BroadcastsInDim S131072x128 (![0, 1] : Fin 2 → Fin S131072x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  reducesTo_S131072x128_S_d0_1 : S131072x128.ReducesTo [0, 1] S_
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.K.Data.lean ====
/-
  The proof data of the one pipelined region: what each window's staging buffer holds after the body at each
  grid point. The eight streamed windows (four 2048-row sub-blocks of X, the matching four of r) and the
  resident window (mus) are only read, so each is left at its block; the output window's one whole-block store
  writes the row vector  Σ_k Σ_rows r·max(‖x‖² + ‖μ‖² − 2 x·μ, 0)  of the four sub-blocks at that point.
  X and r are each handed to four windows: each window holds a quarter share of its array.
-/
import proofs.«104884_g7499012899433_feedfinal_73_15_alg».proof.Proof.Gen.Kernel.Launch
import proofs.«104884_g7499012899433_feedfinal_73_15_alg».proof.Proof.Gen.Kernel.Skeleton
import proofs.«104884_g7499012899433_feedfinal_73_15_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s TensorCore buffers when the region is entered: as launched (the region is @main's first item). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2048×128 block, the whole 128×128 block and the whole 1×1×128 block, as the body's accesses name them. -/
abbrev rX : Rect S2048x128 := Rect.unit (s := S2048x128) ![0, 0] S2048x128.size Facts₀.inb_S2048x128_S2048x128_0_0
abbrev rM : Rect S128x128 := Rect.unit (s := S128x128) ![0, 0] S128x128.size Facts₀.inb_S128x128_S128x128_0_0
abbrev rO : Rect S1x1x128 := Rect.unit (s := S1x1x128) ![0, 0, 0] S1x1x128.size Facts₀.inb_S1x1x128_S1x1x128_0_0_0

/-- The row vector the body stores from the four (x, r) sub-block pairs and the centres. -/
def outVal (x0 x1 x2 x3 r0 r1 r2 r3 : Vec F S2048x128 .f32) (mu : Vec F S128x128 .f32) : Vec F S1x1x128 .f32 :=
  k0_pay4 (View.ld mu rM) (k0_pay1 (View.ld mu rM)) (k0_pay2 (View.ld mu rM) (View.ld x0 rX) (View.ld r0 rX))
    (k0_pay3 (View.ld mu rM) (View.ld x1 rX) (View.ld r1 rX)) (View.ld x2 rX) (View.ld r2 rX) (View.ld x3 rX) (View.ld r3 rX)

/-- The output window's staging buffer after the body: its one store, which covers the block. -/
def outBlk (x0 x1 x2 x3 r0 r1 r2 r3 : Vec F S2048x128 .f32) (mu : Vec F S128x128 .f32) : Vec F S1x1x128 .f32 :=
  View.canon [⟨rO, outVal x0 x1 x2 x3 r0 r1 r2 r3 mu⟩]

/-- Four positive shares of one array, composing to the full share. -/
abbrev qA : PosShare TreeShare := fullShare.left
abbrev qB : PosShare TreeShare := fullShare.right.left
abbrev qC : PosShare TreeShare := fullShare.right.right.left
abbrev qD : PosShare TreeShare := fullShare.right.right.right

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => qA
    | ⟨1, _⟩ => qB
    | ⟨2, _⟩ => qC
    | ⟨3, _⟩ => qD
    | ⟨4, _⟩ => qA
    | ⟨5, _⟩ => qB
    | ⟨6, _⟩ => qC
    | ⟨7, _⟩ => qD
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = outBlk (iblk m c 0 t) (iblk m c 1 t) (iblk m c 2 t) (iblk m c 3 t) (iblk m c 4 t) (iblk m c 5 t) (iblk m c 6 t) (iblk m c 7 t) (iblk m c 8 t) := by
  dsimp only [dats]

end Cert.Kernel.Hand

end
-- ==== Proof.K.Body.lean ====
/-
  The kernel body's triple and the body obligation of the one pipelined region. The body reads the nine input
  windows' staging buffers whole (four sub-blocks of X, four of r, the centres), and stores the output window's
  whole 1×1×128 block once; so after the body every input buffer holds what it held and the output buffer holds
  the canonical contents of that one covering store.
-/
import proofs.«104884_g7499012899433_feedfinal_73_15_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The output's one store covers its block -/

/-- The one store writes the whole 1×1×128 rectangle, so every index of the block lies in it. -/
theorem coverO (p0 : Vec F S1x1x128 .f32) (y : S1x1x128.Idx) :
    ∃ pc ∈ ([⟨rO, p0⟩] : List (View.Piece (Elt F) S1x1x128 .f32)), y ∈ pc.1.set :=
  View.cover_of_tiled [⟨rO, p0⟩] S1x1x128.size (by rfl) y

/-! ## The body's triple -/

set_option maxHeartbeats 1000000 in
/-- The body on whole staging memrefs: the nine inputs at read contents, the output at anything; it runs to the
    continuation holding the inputs as they were and the output at the canonical contents of its one store. -/
theorem sound_kernel (c : Dev nD) (E : Set ℕ) (i : grid0.Coords)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (arg7 : Memref sig .tc .vmem S2048x128 .f32) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S128x128 .f32) (harg10 : arg10.IsWhole)
    (arg11 : Memref sig .tc .vmem S1x1x128 .f32) (harg11 : arg11.IsWhole)
    (x0 x1 x2 x3 r0 r1 r2 r3 : Vec F S2048x128 .f32) (mu : Vec F S128x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare r0 ∗ owns (c : Thread nD τ) arg7 fullShare r1
        ∗ owns (c : Thread nD τ) arg8 fullShare r2 ∗ owns (c : Thread nD τ) arg9 fullShare r3
        ∗ owns (c : Thread nD τ) arg10 fullShare mu ∗ (∃ d, owns (c : Thread nD τ) arg11 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare r0 ∗ owns (c : Thread nD τ) arg7 fullShare r1
            ∗ owns (c : Thread nD τ) arg8 fullShare r2 ∗ owns (c : Thread nD τ) arg9 fullShare r3
            ∗ owns (c : Thread nD τ) arg10 fullShare mu
            ∗ owns (c : Thread nD τ) arg11 fullShare (outBlk x0 x1 x2 x3 r0 r1 r2 r3 mu)) -∗ K ⟨⟩))
      ⊢ wp frame (wpE (defs₀ (F := F)) Variants.none c none) E
          (cc0__loss_body i arg2 harg2 arg3 harg3 arg4 harg4 arg5 harg5 arg6 harg6 arg7 harg7 arg8 harg8 arg9 harg9
            arg10 harg10 arg11 harg11) K := by
  simp only [cc0__loss_body_eq_skeleton]; unfold cc0__loss_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverO _)

/-! ## What each input window's current buffer holds -/

/-- Input window 0's current staging buffer holds its block at every point, fetched there or not: an unfetched
    point has the block index of the point before it, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's current staging buffer holds its block at every point, fetched there or not: an unfetched
    point has the block index of the point before it, and the body leaves the block in place. -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's current staging buffer holds its block at every point, fetched there or not: an unfetched
    point has the block index of the point before it, and the body leaves the block in place. -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's current staging buffer holds its block at every point, fetched there or not: an unfetched
    point has the block index of the point before it, and the body leaves the block in place. -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
/-- Input window 4's current staging buffer holds its block at every point, fetched there or not: an unfetched
    point has the block index of the point before it, and the body leaves the block in place. -/
theorem before4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
/-- Input window 5's current staging buffer holds its block at every point, fetched there or not: an unfetched
    point has the block index of the point before it, and the body leaves the block in place. -/
theorem before5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
/-- Input window 6's current staging buffer holds its block at every point, fetched there or not: an unfetched
    point has the block index of the point before it, and the body leaves the block in place. -/
theorem before6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
/-- Input window 7's current staging buffer holds its block at every point, fetched there or not: an unfetched
    point has the block index of the point before it, and the body leaves the block in place. -/
theorem before7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)
/-- Input window 8's current staging buffer holds its block at every point, fetched there or not: an unfetched
    point has the block index of the point before it, and the body leaves the block in place. -/
theorem before8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)

/-! ## The body obligation, at a generic point -/

/-- What the body is called with at point `t`: the invariant, what the core owes, and the ten windows' current
    staging buffers, each at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns: the same at the next point, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the input buffers hold their blocks, so the body's triple applies at the point's
    blocks; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Exit.lean ====
/-
  The device's buffers at three moments, as valuations: at launch; when the region has ended (the partial results
  at what the sixteen write-backs left, every other buffer as launched); and after the four host operations that
  follow the region (a zero, the sum of all partial results, the constant 131072, their quotient).
-/
import proofs.«104884_g7499012899433_feedfinal_73_15_alg».proof.Proof.K.Data
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The launch contents of core `c`, as a valuation of its device buffers. -/
abbrev V₀ (c : Dev nD) : Valuation τ sig (Elt F) := fun b => m (c, b)

/-- The device's buffers when the region has ended: the partial results at what the write-backs left, the rest as launched. -/
def Wexit (c : Dev nD) : Valuation τ sig (Elt F) := fun b =>
  if h : b = Proc.devRef .tc main_v0 then h ▸ ((dats m 0 c).arrAt 9 cfg0.N) else m (c, b)

/-- The device's buffers after the host operations that follow the region. -/
def Wend (c : Dev nD) : Valuation τ sig (Elt F) := StableHlo.after (hostOps1 (F := F)) (Wexit m c)

end Cert.Kernel.Hand

end
-- ==== Proof.K.EntrySplit.lean ====
/-
  The launch hands the region the distinct buffers behind its ten windows' arrays, each whole at the full share:
  X (windows 0 to 3), r (windows 4 to 7), the centres (window 8) and the partial results (window 9). The region's
  entry wants one points-to per window: X and r each in four shares that compose to the full share, the centres
  and the partial results whole. A full share splits as left ∗ right, its right half again, and once more.
-/
import proofs.«104884_g7499012899433_feedfinal_73_15_alg».proof.Proof.K.Exit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The distinct buffers behind the ten windows' arrays. -/
theorem img_eq : Finset.univ.image (Pipeline.arrRef spec0) = [main_arg0, main_arg1, main_arg2, main_v0].toFinset := by decide

/-- A window's array is its whole buffer, and on entry it holds the launch contents. -/
theorem win_pt (c : Dev nD) (w : Fin cfg0.W) :
    (View.loc c.tc (cfg0.win w).arr.view ↦[(cfg0.win w).arr.view.set]{(dats m 0 c).share w} (dats m 0 c).arrAt w 0 : sProp 𝕄)
      = (c.tc.loc (Pipeline.arrRef spec0 w) ↦{(dats m 0 c).share w} V m c (Pipeline.arrRef spec0 w)) := by
  rw [(arr_whole0 w).set_eq_univ]
  rfl

/-- The share each window holds its array at. -/
theorem share_0 (c : Dev nD) : (dats m 0 c).share 0 = qA := by
  unfold Dat.share; rw [if_neg (by decide)]; rfl
theorem share_1 (c : Dev nD) : (dats m 0 c).share 1 = qB := by
  unfold Dat.share; rw [if_neg (by decide)]; rfl
theorem share_2 (c : Dev nD) : (dats m 0 c).share 2 = qC := by
  unfold Dat.share; rw [if_neg (by decide)]; rfl
theorem share_3 (c : Dev nD) : (dats m 0 c).share 3 = qD := by
  unfold Dat.share; rw [if_neg (by decide)]; rfl
theorem share_4 (c : Dev nD) : (dats m 0 c).share 4 = qA := by
  unfold Dat.share; rw [if_neg (by decide)]; rfl
theorem share_5 (c : Dev nD) : (dats m 0 c).share 5 = qB := by
  unfold Dat.share; rw [if_neg (by decide)]; rfl
theorem share_6 (c : Dev nD) : (dats m 0 c).share 6 = qC := by
  unfold Dat.share; rw [if_neg (by decide)]; rfl
theorem share_7 (c : Dev nD) : (dats m 0 c).share 7 = qD := by
  unfold Dat.share; rw [if_neg (by decide)]; rfl
theorem share_8 (c : Dev nD) : (dats m 0 c).share 8 = fullShare := by
  unfold Dat.share; rw [if_neg (by decide)]; rfl
theorem share_9 (c : Dev nD) : (dats m 0 c).share 9 = fullShare := by
  unfold Dat.share; rw [if_pos (by decide)]

/-- A buffer held at the full share is held at four shares that compose to it. -/
theorem four_shares (ℓ : Loc nD τ sig) (f : Buf (Elt F) ℓ) :
    (ℓ ↦{fullShare} f : sProp 𝕄) ⊢ iprop((ℓ ↦{qA} f) ∗ (ℓ ↦{qB} f) ∗ (ℓ ↦{qC} f) ∗ ℓ ↦{qD} f) := by
  iintro H
  ihave H := (pointsTo_share (PosShare.mem_left_op_right fullShare)).1 $$ H
  icases H with ⟨Ha, H⟩
  ihave H := (pointsTo_share (PosShare.mem_left_op_right fullShare.right)).1 $$ H
  icases H with ⟨Hb, H⟩
  ihave H := (pointsTo_share (PosShare.mem_left_op_right fullShare.right.right)).1 $$ H
  icases H with ⟨Hc, Hd⟩
  isplitl [Ha]; · iexact Ha
  isplitl [Hb]; · iexact Hb
  isplitl [Hc]; · iexact Hc
  iexact Hd

/-- The launch's whole arrays, dealt to the ten windows: X and r in four shares each, the centres and the
    partial results whole. -/
theorem entry_split (c : Dev nD) :
    (Pipeline.arrBufs spec0 c (fun b => V₀ m c (Proc.devRef .tc b)) : sProp 𝕄) ⊢ (dats m 0 c).arrays ((dats m 0 c).arrAt · 0) := by
  unfold Pipeline.arrBufs Dat.arrays
  rw [bigSep_eq_bigSepL_of_eq [main_arg0, main_arg1, main_arg2, main_v0] img_eq (by decide), bigSep_W0]
  dsimp only
  rw [win_pt m c 0, win_pt m c 1, win_pt m c 2, win_pt m c 3, win_pt m c 4, win_pt m c 5, win_pt m c 6, win_pt m c 7,
    win_pt m c 8, win_pt m c 9, share_0, share_1, share_2, share_3, share_4, share_5, share_6, share_7, share_8, share_9]
  show iprop((c.tc.loc main_arg0 ↦{fullShare} m (c.tc.loc main_arg0)) ∗ (c.tc.loc main_arg1 ↦{fullShare} m (c.tc.loc main_arg1))
      ∗ (c.tc.loc main_arg2 ↦{fullShare} m (c.tc.loc main_arg2)) ∗ (c.tc.loc main_v0 ↦{fullShare} m (c.tc.loc main_v0)))
    ⊢ (iprop((c.tc.loc main_arg0 ↦{qA} m (c.tc.loc main_arg0)) ∗ (c.tc.loc main_arg0 ↦{qB} m (c.tc.loc main_arg0))
      ∗ (c.tc.loc main_arg0 ↦{qC} m (c.tc.loc main_arg0)) ∗ (c.tc.loc main_arg0 ↦{qD} m (c.tc.loc main_arg0))
      ∗ (c.tc.loc main_arg1 ↦{qA} m (c.tc.loc main_arg1)) ∗ (c.tc.loc main_arg1 ↦{qB} m (c.tc.loc main_arg1))
      ∗ (c.tc.loc main_arg1 ↦{qC} m (c.tc.loc main_arg1)) ∗ (c.tc.loc main_arg1 ↦{qD} m (c.tc.loc main_arg1))
      ∗ (c.tc.loc main_arg2 ↦{fullShare} m (c.tc.loc main_arg2)) ∗ (c.tc.loc main_v0 ↦{fullShare} m (c.tc.loc main_v0))) : sProp 𝕄)
  iintro ⟨HX, HR, HM, HO⟩
  ihave HX := (four_shares (c.tc.loc main_arg0) (m (c.tc.loc main_arg0))) $$ HX
  icases HX with ⟨HX0, HX1, HX2, HX3⟩
  ihave HR := (four_shares (c.tc.loc main_arg1) (m (c.tc.loc main_arg1))) $$ HR
  icases HR with ⟨HR0, HR1, HR2, HR3⟩
  isplitl [HX0]; · iexact HX0
  isplitl [HX1]; · iexact HX1
  isplitl [HX2]; · iexact HX2
  isplitl [HX3]; · iexact HX3
  isplitl [HR0]; · iexact HR0
  isplitl [HR1]; · iexact HR1
  isplitl [HR2]; · iexact HR2
  isplitl [HR3]; · iexact HR3
  isplitl [HM]; · iexact HM
  iexact HO

end Cert.Kernel.Hand

end
-- ==== Proof.K.TailRun.lean ====
/-
  The four host operations that follow the region, run from the region's exit: they read the partial results
  (the output window's array, held whole) and read and write the four buffers that bypass the region; every
  other window's array is untouched and handed back as it was.
-/
import proofs.«104884_g7499012899433_feedfinal_73_15_alg».proof.Proof.K.Exit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers the host operations touch -/

/-- The partial results and the four buffers that bypass the region. -/
abbrev tailL : List (Ref sig .tc) := [main_v0, main_cst, main_v1, main_cst_0, main_v2]

/-- The same as a set of device buffers. -/
abbrev tailS : Finset (DevRef τ sig) :=
  tailL.toFinset.map ⟨Proc.devRef (sig := sig) (.tc : Proc τ), Proc.devRef_injective _⟩

/-- The five buffers held at a valuation, one by one. -/
theorem held_tail (c : Dev nD) (W : Valuation τ sig (Elt F)) :
    (StableHlo.held (c.tc : Thread nD τ) tailS W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held tailS
  rw [bigSep_map, bigSep_eq_bigSepL tailL (by decide)]
  rfl

/-- At the region's exit the partial results are what the write-backs left, -/
theorem Wexit_v0 (c : Dev nD) : Wexit m c (Proc.devRef .tc main_v0) = (dats m 0 c).arrAt 9 cfg0.N := by
  unfold Wexit; rw [dif_pos rfl]

/-- and every other buffer is as launched. -/
theorem Wexit_ne (c : Dev nD) (b : Ref sig .tc) (h : b ≠ main_v0) : Wexit m c (Proc.devRef .tc b) = V₀ m c (Proc.devRef .tc b) := by
  unfold Wexit; rw [dif_neg (StableHlo.devRef_ne_of_ne h)]

/-- No host operation writes the partial results. -/
theorem Wend_v0 (c : Dev nD) : Wend m c (Proc.devRef .tc main_v0) = (dats m 0 c).arrAt 9 cfg0.N := by
  unfold Wend
  rw [StableHlo.after_of_writes_sub (W := [main_cst, main_v1, main_cst_0, main_v2]) hostOps1 (Wexit m c) ?_ (by decide), Wexit_v0]
  exact ⟨Finset.singleton_subset_iff.mpr (List.mem_toFinset.mpr (List.mem_map.mpr ⟨main_cst, by decide, rfl⟩)),
    Finset.singleton_subset_iff.mpr (List.mem_toFinset.mpr (List.mem_map.mpr ⟨main_v1, by decide, rfl⟩)),
    Finset.singleton_subset_iff.mpr (List.mem_toFinset.mpr (List.mem_map.mpr ⟨main_cst_0, by decide, rfl⟩)),
    Finset.singleton_subset_iff.mpr (List.mem_toFinset.mpr (List.mem_map.mpr ⟨main_v2, by decide, rfl⟩))⟩

/-- Every host operation's buffers are among the five. -/
theorem tail_sub : ∀ op ∈ (hostOps1 : List (HloOp τ sig (Elt F))), op.bufs ⊆ tailS := by
  have hm : ∀ b ∈ tailL, Proc.devRef (τ := τ) .tc b ∈ tailS := fun b hb =>
    Finset.mem_map_of_mem _ (List.mem_toFinset.mpr hb)
  refine List.forall_iff_forall_mem.mp ⟨?_, ?_, ?_, ?_⟩
  · show ({Proc.devRef .tc main_cst} : Finset (DevRef τ sig)) ⊆ tailS
    exact Finset.singleton_subset_iff.mpr (hm _ (by decide))
  · show ({Proc.devRef .tc main_v0, Proc.devRef .tc main_cst, Proc.devRef .tc main_v1} : Finset (DevRef τ sig)) ⊆ tailS
    exact Finset.insert_subset_iff.mpr ⟨hm _ (by decide), Finset.insert_subset_iff.mpr ⟨hm _ (by decide), Finset.singleton_subset_iff.mpr (hm _ (by decide))⟩⟩
  · show ({Proc.devRef .tc main_cst_0} : Finset (DevRef τ sig)) ⊆ tailS
    exact Finset.singleton_subset_iff.mpr (hm _ (by decide))
  · show ({Proc.devRef .tc main_v1, Proc.devRef .tc main_cst_0, Proc.devRef .tc main_v2} : Finset (DevRef τ sig)) ⊆ tailS
    exact Finset.insert_subset_iff.mpr ⟨hm _ (by decide), Finset.insert_subset_iff.mpr ⟨hm _ (by decide), Finset.singleton_subset_iff.mpr (hm _ (by decide))⟩⟩

/-- None allocates. -/
theorem tail_fresh : ∀ op ∈ (hostOps1 : List (HloOp τ sig (Elt F))), op.fresh = ∅ :=
  List.forall_iff_forall_mem.mp ⟨rfl, rfl, rfl, rfl⟩

/-! ## The output window's array among the windows' arrays -/

/-- The nine input windows' arrays, each at its share. -/
def arraysRest (c : Dev nD) (A : (w : Fin cfg0.W) → Buf (Elt F) ((cfg0.win w).arr.view.loc (c.tc : Thread nD τ))) : sProp 𝕄 :=
  bigSep (Finset.univ.erase (9 : Fin cfg0.W)) fun w : Fin cfg0.W =>
    (cfg0.win w).arr.view.loc (c.tc : Thread nD τ) ↦[(cfg0.win w).arr.view.set]{(dats m 0 c).share w} A w

/-- The windows' arrays are the partial results' buffer, whole at the full share (the output window's array), and
    the nine input windows' arrays. -/
theorem arrays_split (c : Dev nD) (A : (w : Fin cfg0.W) → Buf (Elt F) ((cfg0.win w).arr.view.loc (c.tc : Thread nD τ))) :
    (dats m 0 c).arrays A = iprop((((c.tc : Thread nD τ).loc main_v0) ↦{fullShare} A 9) ∗ arraysRest m c A) := by
  unfold Dat.arrays arraysRest
  rw [bigSep_univ_split (9 : Fin 10), (arr_whole0 9).set_eq_univ, show (dats m 0 c).share 9 = fullShare from rfl]
  rfl

/-- The five buffers at the region's exit: the partial results at what the write-backs left, the rest as launched. -/
theorem held_exit (c : Dev nD) :
    (StableHlo.held (c.tc : Thread nD τ) tailS (Wexit m c) : sProp 𝕄)
      = iprop((((c.tc : Thread nD τ).loc main_v0) ↦{fullShare} (dats m 0 c).arrAt 9 cfg0.N)
          ∗ (((c.tc : Thread nD τ).loc main_cst) ↦{fullShare} V₀ m c (Proc.devRef .tc main_cst))
          ∗ (((c.tc : Thread nD τ).loc main_v1) ↦{fullShare} V₀ m c (Proc.devRef .tc main_v1))
          ∗ (((c.tc : Thread nD τ).loc main_cst_0) ↦{fullShare} V₀ m c (Proc.devRef .tc main_cst_0))
          ∗ (((c.tc : Thread nD τ).loc main_v2) ↦{fullShare} V₀ m c (Proc.devRef .tc main_v2))) := by
  rw [held_tail, Wexit_v0, Wexit_ne m c main_cst (by decide), Wexit_ne m c main_v1 (by decide),
    Wexit_ne m c main_cst_0 (by decide), Wexit_ne m c main_v2 (by decide)]

/-- The five buffers after the host operations: the partial results unchanged, the rest at what was computed. -/
theorem held_end (c : Dev nD) :
    (StableHlo.held (c.tc : Thread nD τ) tailS (StableHlo.after (hostOps1 (F := F)) (Wexit m c)) : sProp 𝕄)
      = iprop((((c.tc : Thread nD τ).loc main_v0) ↦{fullShare} (dats m 0 c).arrAt 9 cfg0.N)
          ∗ (((c.tc : Thread nD τ).loc main_cst) ↦{fullShare} Wend m c (Proc.devRef .tc main_cst))
          ∗ (((c.tc : Thread nD τ).loc main_v1) ↦{fullShare} Wend m c (Proc.devRef .tc main_v1))
          ∗ (((c.tc : Thread nD τ).loc main_cst_0) ↦{fullShare} Wend m c (Proc.devRef .tc main_cst_0))
          ∗ (((c.tc : Thread nD τ).loc main_v2) ↦{fullShare} Wend m c (Proc.devRef .tc main_v2))) := by
  rw [held_tail, show StableHlo.after (hostOps1 (F := F)) (Wexit m c) = Wend m c from rfl, Wend_v0]

/-! ## The run of the host operations -/

set_option backward.isDefEq.respectTransparency.types false in
/-- From the region's exit, holding the boundary, the windows' arrays at what the region left and the bypassing
    buffers as launched, the host operations run and hand back the arrays unchanged and the bypassing buffers at
    what the operations computed. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Wend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (fun b => V₀ m c (Proc.devRef .tc b)))
      ⊢ wp frame (wpE (defs (F := F)) (Variants.lift Variants.none) (c.tc : Thread nD τ) none) Set.univ
          (Pipeline.chain ([hostOps1 (F := F)].map StableHlo.seq)) Q' := by
  rw [arrays_split, unscopedRest0_eq, unscopedRest0_eq, List.map_cons, List.map_nil, Pipeline.chain_cons, Pipeline.chain_nil]
  iintro ⟨Hk, Hb, ⟨A9, Ar⟩, B0, B1, B2, B3⟩
  iapply (StableHlo.wp_seq (Variants.lift Variants.none) none Set.univ c tailS _ hostOps1 tail_sub tail_fresh (Wexit m c)) $$ [Hb A9 B0 B1 B2 B3]
  · rw [held_exit]
    isplitl [Hb]; · iexact Hb
    isplitl [A9]; · iexact A9
    isplitl [B0]; · iexact B0
    isplitl [B1]; · iexact B1
    isplitl [B2]; · iexact B2
    iexact B3
  iintro ⟨Hb, Hh⟩
  ihave Hh := (Entails.of_eq (held_end m c)) $$ Hh
  icases Hh with ⟨A9, B0, B1, B2, B3⟩
  rw [wp_pure]
  imodintro
  iapply Hk
  isplitl [A9 Ar]
  · isplitl [A9]; · iexact A9
    iexact Ar
  isplitl [B0]; · iexact B0
  isplitl [B1]; · iexact B1
  isplitl [B2]; · iexact B2
  iexact B3

end Cert.Kernel.Hand

end
-- ==== Proof.K.Launch.lean ====
/-
  The run of @main — the pipelined region, then the four host operations that sum the [16, 1, 128] partial results
  and divide by 131072 — from any memory with zero counters: it terminates; the three argument arrays end as they
  were launched (they are only read: each window's share of X and r is a read share); and the result buffer holds
  the quotient by 131072 of zero plus the sum of the partial results the sixteen write-backs left.
-/
import proofs.«104884_g7499012899433_feedfinal_73_15_alg».proof.Proof.K.Body
import proofs.«104884_g7499012899433_feedfinal_73_15_alg».proof.Proof.K.EntrySplit
import proofs.«104884_g7499012899433_feedfinal_73_15_alg».proof.Proof.K.TailRun

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region and then the line of four host operations. -/
theorem hmain : Pipeline.HMainK (Ix := Unit) (Name := ℕ) (U := UR sig nD τ) (Lvl := ℕ) cfgs 0 defs₀ Variants.none m (main (F := F))
    (fun c b => V₀ m c (Proc.devRef .tc b)) (fun _ => Pipeline.chain ([hostOps1 (F := F)].map StableHlo.seq)) :=
  Pipeline.hmain_around cfgs 0 defs₀ Variants.none m main [] [hostOps1] (by trivial) (by trivial) fun c => (main_chain c).trans rfl

set_option backward.isDefEq.respectTransparency.types false in
/-- From any memory with zero counters every weakly fair execution of @main terminates, each array of the pipeline at
    what its write-backs leave and each of the host operations' buffers at what those operations leave. -/
theorem run_main : θ_run defs (onTc (τ := τ) (main (F := F))) (s₀ m ρ)
    (Pipeline.FramePost cfgs (dats m) 0 (fun c b => Wend m c (Proc.devRef .tc b))) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain ([hostOps1 (F := F)].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V₀ m c (Proc.devRef .tc b)) (hmain := hmain m)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V₀ m c (Proc.devRef .tc b)))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m c Q')
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => ⟨(h c).1, Pipeline.rest_of_restP Pipeline.Prefetch.none spec0 (fun k => k.elim0) c (fun b => Wend m c (Proc.devRef .tc b)) s
      (fun k => k.elim0) (fun k => k.elim0) (h c).2.2⟩)

/-- The quotient by 131072 of zero plus the sum of a [16, 1, 128] array: what the host operations compute of the partial results. -/
def tailVal (P : (⟨S16x1x128, .f32⟩ : BufTy).Contents (Elt F)) : (⟨S_, .f32⟩ : BufTy).Contents (Elt F) :=
  Host.divf (Host.reduceAdd P (constant S_ .f32 0x00000000#32) Facts₀.reducesTo_S16x1x128_S_d0_1_2 Facts₀.h_S_) (constant S_ .f32 0x48000000#32)

/-- The result buffer after the host operations. -/
theorem Wend_result (c : Dev nD) : Wend m c (Proc.devRef .tc main_v2) = tailVal ((dats m 0 c).arrAt 9 cfg0.N) := by
  unfold Wend tailVal
  simp only [hostOps1]
  after_results
  unfold Wexit
  rw [dif_pos rfl]

theorem main_v2_rest : main_v2 ∈ Pipeline.restRefs sig spec0 := by decide

/-- The run read at the result buffer and the argument arrays. -/
theorem run_result : θ_run defs (onTc (τ := τ) (main (F := F))) ⟨m, fun _ => 0, ρ⟩ (fun r => ∀ c : Dev nD,
      r.2.mem ((c.tc : Thread nD τ).loc main_v2) = tailVal ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v2 main_v2_rest).trans (Wend_result m c),
      ((h c).1 0).trans (((dats m 0 c).arrAt_in 0 rfl _).trans (A_eq m c 0)),
      ((h c).1 4).trans (((dats m 0 c).arrAt_in 4 rfl _).trans (A_eq m c 4)),
      ((h c).1 8).trans (((dats m 0 c).arrAt_in 8 rfl _).trans (A_eq m c 8))⟩) (run_main m ρ)

/-- The frame: the run terminates with the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.KI.Data.lean ====
/-
  The proof data of the one pipelined region: what each window's staging buffer holds after the body at each
  grid point. The eight streamed windows (four 2048-row sub-blocks of X, the matching four of r) and the
  resident window (mus) are only read, so each is left at its block; the output window's one whole-block store
  writes the row vector  Σ_k Σ_rows r·max(‖x‖² + ‖μ‖² − 2 x·μ, 0)  of the four sub-blocks at that point.
  X and r are each handed to four windows: each window holds a quarter share of its array.
-/
import proofs.«104884_g7499012899433_feedfinal_73_15_alg».proof.Proof.Gen.KernelIdeal.Launch
import proofs.«104884_g7499012899433_feedfinal_73_15_alg».proof.Proof.Gen.KernelIdeal.Skeleton
import proofs.«104884_g7499012899433_feedfinal_73_15_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s TensorCore buffers when the region is entered: as launched (the region is @main's first item). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2048×128 block, the whole 128×128 block and the whole 1×1×128 block, as the body's accesses name them. -/
abbrev rX : Rect S2048x128 := Rect.unit (s := S2048x128) ![0, 0] S2048x128.size Facts₀.inb_S2048x128_S2048x128_0_0
abbrev rM : Rect S128x128 := Rect.unit (s := S128x128) ![0, 0] S128x128.size Facts₀.inb_S128x128_S128x128_0_0
abbrev rO : Rect S1x1x128 := Rect.unit (s := S1x1x128) ![0, 0, 0] S1x1x128.size Facts₀.inb_S1x1x128_S1x1x128_0_0_0

/-- The row vector the body stores from the four (x, r) sub-block pairs and the centres. -/
def outVal (x0 x1 x2 x3 r0 r1 r2 r3 : Vec F S2048x128 .f32) (mu : Vec F S128x128 .f32) : Vec F S1x1x128 .f32 :=
  k0_pay4 (View.ld mu rM) (k0_pay1 (View.ld mu rM)) (k0_pay2 (View.ld mu rM) (View.ld x0 rX) (View.ld r0 rX))
    (k0_pay3 (View.ld mu rM) (View.ld x1 rX) (View.ld r1 rX)) (View.ld x2 rX) (View.ld r2 rX) (View.ld x3 rX) (View.ld r3 rX)

/-- The output window's staging buffer after the body: its one store, which covers the block. -/
def outBlk (x0 x1 x2 x3 r0 r1 r2 r3 : Vec F S2048x128 .f32) (mu : Vec F S128x128 .f32) : Vec F S1x1x128 .f32 :=
  View.canon [⟨rO, outVal x0 x1 x2 x3 r0 r1 r2 r3 mu⟩]

/-- Four positive shares of one array, composing to the full share. -/
abbrev qA : PosShare TreeShare := fullShare.left
abbrev qB : PosShare TreeShare := fullShare.right.left
abbrev qC : PosShare TreeShare := fullShare.right.right.left
abbrev qD : PosShare TreeShare := fullShare.right.right.right

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => qA
    | ⟨1, _⟩ => qB
    | ⟨2, _⟩ => qC
    | ⟨3, _⟩ => qD
    | ⟨4, _⟩ => qA
    | ⟨5, _⟩ => qB
    | ⟨6, _⟩ => qC
    | ⟨7, _⟩ => qD
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = outBlk (iblk m c 0 t) (iblk m c 1 t) (iblk m c 2 t) (iblk m c 3 t) (iblk m c 4 t) (iblk m c 5 t) (iblk m c 6 t) (iblk m c 7 t) (iblk m c 8 t) := by
  dsimp only [dats]

end Cert.KernelIdeal.Hand

end
-- ==== Proof.KI.Body.lean ====
/-
  The kernel body's triple and the body obligation of the one pipelined region. The body reads the nine input
  windows' staging buffers whole (four sub-blocks of X, four of r, the centres), and stores the output window's
  whole 1×1×128 block once; so after the body every input buffer holds what it held and the output buffer holds
  the canonical contents of that one covering store.
-/
import proofs.«104884_g7499012899433_feedfinal_73_15_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The output's one store covers its block -/

/-- The one store writes the whole 1×1×128 rectangle, so every index of the block lies in it. -/
theorem coverO (p0 : Vec F S1x1x128 .f32) (y : S1x1x128.Idx) :
    ∃ pc ∈ ([⟨rO, p0⟩] : List (View.Piece (Elt F) S1x1x128 .f32)), y ∈ pc.1.set :=
  View.cover_of_tiled [⟨rO, p0⟩] S1x1x128.size (by rfl) y

/-! ## The body's triple -/

set_option maxHeartbeats 1000000 in
/-- The body on whole staging memrefs: the nine inputs at read contents, the output at anything; it runs to the
    continuation holding the inputs as they were and the output at the canonical contents of its one store. -/
theorem sound_kernel (c : Dev nD) (E : Set ℕ) (i : grid0.Coords)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (arg7 : Memref sig .tc .vmem S2048x128 .f32) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S128x128 .f32) (harg10 : arg10.IsWhole)
    (arg11 : Memref sig .tc .vmem S1x1x128 .f32) (harg11 : arg11.IsWhole)
    (x0 x1 x2 x3 r0 r1 r2 r3 : Vec F S2048x128 .f32) (mu : Vec F S128x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare r0 ∗ owns (c : Thread nD τ) arg7 fullShare r1
        ∗ owns (c : Thread nD τ) arg8 fullShare r2 ∗ owns (c : Thread nD τ) arg9 fullShare r3
        ∗ owns (c : Thread nD τ) arg10 fullShare mu ∗ (∃ d, owns (c : Thread nD τ) arg11 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare r0 ∗ owns (c : Thread nD τ) arg7 fullShare r1
            ∗ owns (c : Thread nD τ) arg8 fullShare r2 ∗ owns (c : Thread nD τ) arg9 fullShare r3
            ∗ owns (c : Thread nD τ) arg10 fullShare mu
            ∗ owns (c : Thread nD τ) arg11 fullShare (outBlk x0 x1 x2 x3 r0 r1 r2 r3 mu)) -∗ K ⟨⟩))
      ⊢ wp frame (wpE (defs₀ (F := F)) Variants.none c none) E
          (cc0__loss_body i arg2 harg2 arg3 harg3 arg4 harg4 arg5 harg5 arg6 harg6 arg7 harg7 arg8 harg8 arg9 harg9
            arg10 harg10 arg11 harg11) K := by
  simp only [cc0__loss_body_eq_skeleton]; unfold cc0__loss_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverO _)

/-! ## What each input window's current buffer holds -/

/-- Input window 0's current staging buffer holds its block at every point, fetched there or not: an unfetched
    point has the block index of the point before it, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's current staging buffer holds its block at every point, fetched there or not: an unfetched
    point has the block index of the point before it, and the body leaves the block in place. -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's current staging buffer holds its block at every point, fetched there or not: an unfetched
    point has the block index of the point before it, and the body leaves the block in place. -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's current staging buffer holds its block at every point, fetched there or not: an unfetched
    point has the block index of the point before it, and the body leaves the block in place. -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
/-- Input window 4's current staging buffer holds its block at every point, fetched there or not: an unfetched
    point has the block index of the point before it, and the body leaves the block in place. -/
theorem before4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
/-- Input window 5's current staging buffer holds its block at every point, fetched there or not: an unfetched
    point has the block index of the point before it, and the body leaves the block in place. -/
theorem before5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
/-- Input window 6's current staging buffer holds its block at every point, fetched there or not: an unfetched
    point has the block index of the point before it, and the body leaves the block in place. -/
theorem before6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
/-- Input window 7's current staging buffer holds its block at every point, fetched there or not: an unfetched
    point has the block index of the point before it, and the body leaves the block in place. -/
theorem before7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)
/-- Input window 8's current staging buffer holds its block at every point, fetched there or not: an unfetched
    point has the block index of the point before it, and the body leaves the block in place. -/
theorem before8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)

/-! ## The body obligation, at a generic point -/

/-- What the body is called with at point `t`: the invariant, what the core owes, and the ten windows' current
    staging buffers, each at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns: the same at the next point, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the input buffers hold their blocks, so the body's triple applies at the point's
    blocks; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Exit.lean ====
/-
  The device's buffers at three moments, as valuations: at launch; when the region has ended (the partial results
  at what the sixteen write-backs left, every other buffer as launched); and after the four host operations that
  follow the region (a zero, the sum of all partial results, the constant 131072, their quotient).
-/
import proofs.«104884_g7499012899433_feedfinal_73_15_alg».proof.Proof.KI.Data
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The launch contents of core `c`, as a valuation of its device buffers. -/
abbrev V₀ (c : Dev nD) : Valuation τ sig (Elt F) := fun b => m (c, b)

/-- The device's buffers when the region has ended: the partial results at what the write-backs left, the rest as launched. -/
def Wexit (c : Dev nD) : Valuation τ sig (Elt F) := fun b =>
  if h : b = Proc.devRef .tc main_v0 then h ▸ ((dats m 0 c).arrAt 9 cfg0.N) else m (c, b)

/-- The device's buffers after the host operations that follow the region. -/
def Wend (c : Dev nD) : Valuation τ sig (Elt F) := StableHlo.after (hostOps1 (F := F)) (Wexit m c)

end Cert.KernelIdeal.Hand

end
-- ==== Proof.KI.EntrySplit.lean ====
/-
  The launch hands the region the distinct buffers behind its ten windows' arrays, each whole at the full share:
  X (windows 0 to 3), r (windows 4 to 7), the centres (window 8) and the partial results (window 9). The region's
  entry wants one points-to per window: X and r each in four shares that compose to the full share, the centres
  and the partial results whole. A full share splits as left ∗ right, its right half again, and once more.
-/
import proofs.«104884_g7499012899433_feedfinal_73_15_alg».proof.Proof.KI.Exit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The distinct buffers behind the ten windows' arrays. -/
theorem img_eq : Finset.univ.image (Pipeline.arrRef spec0) = [main_arg0, main_arg1, main_arg2, main_v0].toFinset := by decide

/-- A window's array is its whole buffer, and on entry it holds the launch contents. -/
theorem win_pt (c : Dev nD) (w : Fin cfg0.W) :
    (View.loc c.tc (cfg0.win w).arr.view ↦[(cfg0.win w).arr.view.set]{(dats m 0 c).share w} (dats m 0 c).arrAt w 0 : sProp 𝕄)
      = (c.tc.loc (Pipeline.arrRef spec0 w) ↦{(dats m 0 c).share w} V m c (Pipeline.arrRef spec0 w)) := by
  rw [(arr_whole0 w).set_eq_univ]
  rfl

/-- The share each window holds its array at. -/
theorem share_0 (c : Dev nD) : (dats m 0 c).share 0 = qA := by
  unfold Dat.share; rw [if_neg (by decide)]; rfl
theorem share_1 (c : Dev nD) : (dats m 0 c).share 1 = qB := by
  unfold Dat.share; rw [if_neg (by decide)]; rfl
theorem share_2 (c : Dev nD) : (dats m 0 c).share 2 = qC := by
  unfold Dat.share; rw [if_neg (by decide)]; rfl
theorem share_3 (c : Dev nD) : (dats m 0 c).share 3 = qD := by
  unfold Dat.share; rw [if_neg (by decide)]; rfl
theorem share_4 (c : Dev nD) : (dats m 0 c).share 4 = qA := by
  unfold Dat.share; rw [if_neg (by decide)]; rfl
theorem share_5 (c : Dev nD) : (dats m 0 c).share 5 = qB := by
  unfold Dat.share; rw [if_neg (by decide)]; rfl
theorem share_6 (c : Dev nD) : (dats m 0 c).share 6 = qC := by
  unfold Dat.share; rw [if_neg (by decide)]; rfl
theorem share_7 (c : Dev nD) : (dats m 0 c).share 7 = qD := by
  unfold Dat.share; rw [if_neg (by decide)]; rfl
theorem share_8 (c : Dev nD) : (dats m 0 c).share 8 = fullShare := by
  unfold Dat.share; rw [if_neg (by decide)]; rfl
theorem share_9 (c : Dev nD) : (dats m 0 c).share 9 = fullShare := by
  unfold Dat.share; rw [if_pos (by decide)]

/-- A buffer held at the full share is held at four shares that compose to it. -/
theorem four_shares (ℓ : Loc nD τ sig) (f : Buf (Elt F) ℓ) :
    (ℓ ↦{fullShare} f : sProp 𝕄) ⊢ iprop((ℓ ↦{qA} f) ∗ (ℓ ↦{qB} f) ∗ (ℓ ↦{qC} f) ∗ ℓ ↦{qD} f) := by
  iintro H
  ihave H := (pointsTo_share (PosShare.mem_left_op_right fullShare)).1 $$ H
  icases H with ⟨Ha, H⟩
  ihave H := (pointsTo_share (PosShare.mem_left_op_right fullShare.right)).1 $$ H
  icases H with ⟨Hb, H⟩
  ihave H := (pointsTo_share (PosShare.mem_left_op_right fullShare.right.right)).1 $$ H
  icases H with ⟨Hc, Hd⟩
  isplitl [Ha]; · iexact Ha
  isplitl [Hb]; · iexact Hb
  isplitl [Hc]; · iexact Hc
  iexact Hd

/-- The launch's whole arrays, dealt to the ten windows: X and r in four shares each, the centres and the
    partial results whole. -/
theorem entry_split (c : Dev nD) :
    (Pipeline.arrBufs spec0 c (fun b => V₀ m c (Proc.devRef .tc b)) : sProp 𝕄) ⊢ (dats m 0 c).arrays ((dats m 0 c).arrAt · 0) := by
  unfold Pipeline.arrBufs Dat.arrays
  rw [bigSep_eq_bigSepL_of_eq [main_arg0, main_arg1, main_arg2, main_v0] img_eq (by decide), bigSep_W0]
  dsimp only
  rw [win_pt m c 0, win_pt m c 1, win_pt m c 2, win_pt m c 3, win_pt m c 4, win_pt m c 5, win_pt m c 6, win_pt m c 7,
    win_pt m c 8, win_pt m c 9, share_0, share_1, share_2, share_3, share_4, share_5, share_6, share_7, share_8, share_9]
  show iprop((c.tc.loc main_arg0 ↦{fullShare} m (c.tc.loc main_arg0)) ∗ (c.tc.loc main_arg1 ↦{fullShare} m (c.tc.loc main_arg1))
      ∗ (c.tc.loc main_arg2 ↦{fullShare} m (c.tc.loc main_arg2)) ∗ (c.tc.loc main_v0 ↦{fullShare} m (c.tc.loc main_v0)))
    ⊢ (iprop((c.tc.loc main_arg0 ↦{qA} m (c.tc.loc main_arg0)) ∗ (c.tc.loc main_arg0 ↦{qB} m (c.tc.loc main_arg0))
      ∗ (c.tc.loc main_arg0 ↦{qC} m (c.tc.loc main_arg0)) ∗ (c.tc.loc main_arg0 ↦{qD} m (c.tc.loc main_arg0))
      ∗ (c.tc.loc main_arg1 ↦{qA} m (c.tc.loc main_arg1)) ∗ (c.tc.loc main_arg1 ↦{qB} m (c.tc.loc main_arg1))
      ∗ (c.tc.loc main_arg1 ↦{qC} m (c.tc.loc main_arg1)) ∗ (c.tc.loc main_arg1 ↦{qD} m (c.tc.loc main_arg1))
      ∗ (c.tc.loc main_arg2 ↦{fullShare} m (c.tc.loc main_arg2)) ∗ (c.tc.loc main_v0 ↦{fullShare} m (c.tc.loc main_v0))) : sProp 𝕄)
  iintro ⟨HX, HR, HM, HO⟩
  ihave HX := (four_shares (c.tc.loc main_arg0) (m (c.tc.loc main_arg0))) $$ HX
  icases HX with ⟨HX0, HX1, HX2, HX3⟩
  ihave HR := (four_shares (c.tc.loc main_arg1) (m (c.tc.loc main_arg1))) $$ HR
  icases HR with ⟨HR0, HR1, HR2, HR3⟩
  isplitl [HX0]; · iexact HX0
  isplitl [HX1]; · iexact HX1
  isplitl [HX2]; · iexact HX2
  isplitl [HX3]; · iexact HX3
  isplitl [HR0]; · iexact HR0
  isplitl [HR1]; · iexact HR1
  isplitl [HR2]; · iexact HR2
  isplitl [HR3]; · iexact HR3
  isplitl [HM]; · iexact HM
  iexact HO

end Cert.KernelIdeal.Hand

end
-- ==== Proof.KI.TailRun.lean ====
/-
  The four host operations that follow the region, run from the region's exit: they read the partial results
  (the output window's array, held whole) and read and write the four buffers that bypass the region; every
  other window's array is untouched and handed back as it was.
-/
import proofs.«104884_g7499012899433_feedfinal_73_15_alg».proof.Proof.KI.Exit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers the host operations touch -/

/-- The partial results and the four buffers that bypass the region. -/
abbrev tailL : List (Ref sig .tc) := [main_v0, main_cst, main_v1, main_cst_0, main_v2]

/-- The same as a set of device buffers. -/
abbrev tailS : Finset (DevRef τ sig) :=
  tailL.toFinset.map ⟨Proc.devRef (sig := sig) (.tc : Proc τ), Proc.devRef_injective _⟩

/-- The five buffers held at a valuation, one by one. -/
theorem held_tail (c : Dev nD) (W : Valuation τ sig (Elt F)) :
    (StableHlo.held (c.tc : Thread nD τ) tailS W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held tailS
  rw [bigSep_map, bigSep_eq_bigSepL tailL (by decide)]
  rfl

/-- At the region's exit the partial results are what the write-backs left, -/
theorem Wexit_v0 (c : Dev nD) : Wexit m c (Proc.devRef .tc main_v0) = (dats m 0 c).arrAt 9 cfg0.N := by
  unfold Wexit; rw [dif_pos rfl]

/-- and every other buffer is as launched. -/
theorem Wexit_ne (c : Dev nD) (b : Ref sig .tc) (h : b ≠ main_v0) : Wexit m c (Proc.devRef .tc b) = V₀ m c (Proc.devRef .tc b) := by
  unfold Wexit; rw [dif_neg (StableHlo.devRef_ne_of_ne h)]

/-- No host operation writes the partial results. -/
theorem Wend_v0 (c : Dev nD) : Wend m c (Proc.devRef .tc main_v0) = (dats m 0 c).arrAt 9 cfg0.N := by
  unfold Wend
  rw [StableHlo.after_of_writes_sub (W := [main_cst, main_v1, main_cst_0, main_v2]) hostOps1 (Wexit m c) ?_ (by decide), Wexit_v0]
  exact ⟨Finset.singleton_subset_iff.mpr (List.mem_toFinset.mpr (List.mem_map.mpr ⟨main_cst, by decide, rfl⟩)),
    Finset.singleton_subset_iff.mpr (List.mem_toFinset.mpr (List.mem_map.mpr ⟨main_v1, by decide, rfl⟩)),
    Finset.singleton_subset_iff.mpr (List.mem_toFinset.mpr (List.mem_map.mpr ⟨main_cst_0, by decide, rfl⟩)),
    Finset.singleton_subset_iff.mpr (List.mem_toFinset.mpr (List.mem_map.mpr ⟨main_v2, by decide, rfl⟩))⟩

/-- Every host operation's buffers are among the five. -/
theorem tail_sub : ∀ op ∈ (hostOps1 : List (HloOp τ sig (Elt F))), op.bufs ⊆ tailS := by
  have hm : ∀ b ∈ tailL, Proc.devRef (τ := τ) .tc b ∈ tailS := fun b hb =>
    Finset.mem_map_of_mem _ (List.mem_toFinset.mpr hb)
  refine List.forall_iff_forall_mem.mp ⟨?_, ?_, ?_, ?_⟩
  · show ({Proc.devRef .tc main_cst} : Finset (DevRef τ sig)) ⊆ tailS
    exact Finset.singleton_subset_iff.mpr (hm _ (by decide))
  · show ({Proc.devRef .tc main_v0, Proc.devRef .tc main_cst, Proc.devRef .tc main_v1} : Finset (DevRef τ sig)) ⊆ tailS
    exact Finset.insert_subset_iff.mpr ⟨hm _ (by decide), Finset.insert_subset_iff.mpr ⟨hm _ (by decide), Finset.singleton_subset_iff.mpr (hm _ (by decide))⟩⟩
  · show ({Proc.devRef .tc main_cst_0} : Finset (DevRef τ sig)) ⊆ tailS
    exact Finset.singleton_subset_iff.mpr (hm _ (by decide))
  · show ({Proc.devRef .tc main_v1, Proc.devRef .tc main_cst_0, Proc.devRef .tc main_v2} : Finset (DevRef τ sig)) ⊆ tailS
    exact Finset.insert_subset_iff.mpr ⟨hm _ (by decide), Finset.insert_subset_iff.mpr ⟨hm _ (by decide), Finset.singleton_subset_iff.mpr (hm _ (by decide))⟩⟩

/-- None allocates. -/
theorem tail_fresh : ∀ op ∈ (hostOps1 : List (HloOp τ sig (Elt F))), op.fresh = ∅ :=
  List.forall_iff_forall_mem.mp ⟨rfl, rfl, rfl, rfl⟩

/-! ## The output window's array among the windows' arrays -/

/-- The nine input windows' arrays, each at its share. -/
def arraysRest (c : Dev nD) (A : (w : Fin cfg0.W) → Buf (Elt F) ((cfg0.win w).arr.view.loc (c.tc : Thread nD τ))) : sProp 𝕄 :=
  bigSep (Finset.univ.erase (9 : Fin cfg0.W)) fun w : Fin cfg0.W =>
    (cfg0.win w).arr.view.loc (c.tc : Thread nD τ) ↦[(cfg0.win w).arr.view.set]{(dats m 0 c).share w} A w

/-- The windows' arrays are the partial results' buffer, whole at the full share (the output window's array), and
    the nine input windows' arrays. -/
theorem arrays_split (c : Dev nD) (A : (w : Fin cfg0.W) → Buf (Elt F) ((cfg0.win w).arr.view.loc (c.tc : Thread nD τ))) :
    (dats m 0 c).arrays A = iprop((((c.tc : Thread nD τ).loc main_v0) ↦{fullShare} A 9) ∗ arraysRest m c A) := by
  unfold Dat.arrays arraysRest
  rw [bigSep_univ_split (9 : Fin 10), (arr_whole0 9).set_eq_univ, show (dats m 0 c).share 9 = fullShare from rfl]
  rfl

/-- The five buffers at the region's exit: the partial results at what the write-backs left, the rest as launched. -/
theorem held_exit (c : Dev nD) :
    (StableHlo.held (c.tc : Thread nD τ) tailS (Wexit m c) : sProp 𝕄)
      = iprop((((c.tc : Thread nD τ).loc main_v0) ↦{fullShare} (dats m 0 c).arrAt 9 cfg0.N)
          ∗ (((c.tc : Thread nD τ).loc main_cst) ↦{fullShare} V₀ m c (Proc.devRef .tc main_cst))
          ∗ (((c.tc : Thread nD τ).loc main_v1) ↦{fullShare} V₀ m c (Proc.devRef .tc main_v1))
          ∗ (((c.tc : Thread nD τ).loc main_cst_0) ↦{fullShare} V₀ m c (Proc.devRef .tc main_cst_0))
          ∗ (((c.tc : Thread nD τ).loc main_v2) ↦{fullShare} V₀ m c (Proc.devRef .tc main_v2))) := by
  rw [held_tail, Wexit_v0, Wexit_ne m c main_cst (by decide), Wexit_ne m c main_v1 (by decide),
    Wexit_ne m c main_cst_0 (by decide), Wexit_ne m c main_v2 (by decide)]

/-- The five buffers after the host operations: the partial results unchanged, the rest at what was computed. -/
theorem held_end (c : Dev nD) :
    (StableHlo.held (c.tc : Thread nD τ) tailS (StableHlo.after (hostOps1 (F := F)) (Wexit m c)) : sProp 𝕄)
      = iprop((((c.tc : Thread nD τ).loc main_v0) ↦{fullShare} (dats m 0 c).arrAt 9 cfg0.N)
          ∗ (((c.tc : Thread nD τ).loc main_cst) ↦{fullShare} Wend m c (Proc.devRef .tc main_cst))
          ∗ (((c.tc : Thread nD τ).loc main_v1) ↦{fullShare} Wend m c (Proc.devRef .tc main_v1))
          ∗ (((c.tc : Thread nD τ).loc main_cst_0) ↦{fullShare} Wend m c (Proc.devRef .tc main_cst_0))
          ∗ (((c.tc : Thread nD τ).loc main_v2) ↦{fullShare} Wend m c (Proc.devRef .tc main_v2))) := by
  rw [held_tail, show StableHlo.after (hostOps1 (F := F)) (Wexit m c) = Wend m c from rfl, Wend_v0]

/-! ## The run of the host operations -/

set_option backward.isDefEq.respectTransparency.types false in
/-- From the region's exit, holding the boundary, the windows' arrays at what the region left and the bypassing
    buffers as launched, the host operations run and hand back the arrays unchanged and the bypassing buffers at
    what the operations computed. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Wend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (fun b => V₀ m c (Proc.devRef .tc b)))
      ⊢ wp frame (wpE (defs (F := F)) (Variants.lift Variants.none) (c.tc : Thread nD τ) none) Set.univ
          (Pipeline.chain ([hostOps1 (F := F)].map StableHlo.seq)) Q' := by
  rw [arrays_split, unscopedRest0_eq, unscopedRest0_eq, List.map_cons, List.map_nil, Pipeline.chain_cons, Pipeline.chain_nil]
  iintro ⟨Hk, Hb, ⟨A9, Ar⟩, B0, B1, B2, B3⟩
  iapply (StableHlo.wp_seq (Variants.lift Variants.none) none Set.univ c tailS _ hostOps1 tail_sub tail_fresh (Wexit m c)) $$ [Hb A9 B0 B1 B2 B3]
  · rw [held_exit]
    isplitl [Hb]; · iexact Hb
    isplitl [A9]; · iexact A9
    isplitl [B0]; · iexact B0
    isplitl [B1]; · iexact B1
    isplitl [B2]; · iexact B2
    iexact B3
  iintro ⟨Hb, Hh⟩
  ihave Hh := (Entails.of_eq (held_end m c)) $$ Hh
  icases Hh with ⟨A9, B0, B1, B2, B3⟩
  rw [wp_pure]
  imodintro
  iapply Hk
  isplitl [A9 Ar]
  · isplitl [A9]; · iexact A9
    iexact Ar
  isplitl [B0]; · iexact B0
  isplitl [B1]; · iexact B1
  isplitl [B2]; · iexact B2
  iexact B3

end Cert.KernelIdeal.Hand

end
-- ==== Proof.KI.Launch.lean ====
/-
  The run of @main — the pipelined region, then the four host operations that sum the [16, 1, 128] partial results
  and divide by 131072 — from any memory with zero counters: it terminates; the three argument arrays end as they
  were launched (they are only read: each window's share of X and r is a read share); and the result buffer holds
  the quotient by 131072 of zero plus the sum of the partial results the sixteen write-backs left.
-/
import proofs.«104884_g7499012899433_feedfinal_73_15_alg».proof.Proof.KI.Body
import proofs.«104884_g7499012899433_feedfinal_73_15_alg».proof.Proof.KI.EntrySplit
import proofs.«104884_g7499012899433_feedfinal_73_15_alg».proof.Proof.KI.TailRun

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region and then the line of four host operations. -/
theorem hmain : Pipeline.HMainK (Ix := Unit) (Name := ℕ) (U := UR sig nD τ) (Lvl := ℕ) cfgs 0 defs₀ Variants.none m (main (F := F))
    (fun c b => V₀ m c (Proc.devRef .tc b)) (fun _ => Pipeline.chain ([hostOps1 (F := F)].map StableHlo.seq)) :=
  Pipeline.hmain_around cfgs 0 defs₀ Variants.none m main [] [hostOps1] (by trivial) (by trivial) fun c => (main_chain c).trans rfl

set_option backward.isDefEq.respectTransparency.types false in
/-- From any memory with zero counters every weakly fair execution of @main terminates, each array of the pipeline at
    what its write-backs leave and each of the host operations' buffers at what those operations leave. -/
theorem run_main : θ_run defs (onTc (τ := τ) (main (F := F))) (s₀ m ρ)
    (Pipeline.FramePost cfgs (dats m) 0 (fun c b => Wend m c (Proc.devRef .tc b))) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain ([hostOps1 (F := F)].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V₀ m c (Proc.devRef .tc b)) (hmain := hmain m)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V₀ m c (Proc.devRef .tc b)))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m c Q')
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => ⟨(h c).1, Pipeline.rest_of_restP Pipeline.Prefetch.none spec0 (fun k => k.elim0) c (fun b => Wend m c (Proc.devRef .tc b)) s
      (fun k => k.elim0) (fun k => k.elim0) (h c).2.2⟩)

/-- The quotient by 131072 of zero plus the sum of a [16, 1, 128] array: what the host operations compute of the partial results. -/
def tailVal (P : (⟨S16x1x128, .f32⟩ : BufTy).Contents (Elt F)) : (⟨S_, .f32⟩ : BufTy).Contents (Elt F) :=
  Host.divf (Host.reduceAdd P (constant S_ .f32 0x00000000#32) Facts₀.reducesTo_S16x1x128_S_d0_1_2 Facts₀.h_S_) (constant S_ .f32 0x48000000#32)

/-- The result buffer after the host operations. -/
theorem Wend_result (c : Dev nD) : Wend m c (Proc.devRef .tc main_v2) = tailVal ((dats m 0 c).arrAt 9 cfg0.N) := by
  unfold Wend tailVal
  simp only [hostOps1]
  after_results
  unfold Wexit
  rw [dif_pos rfl]

theorem main_v2_rest : main_v2 ∈ Pipeline.restRefs sig spec0 := by decide

/-- The run read at the result buffer and the argument arrays. -/
theorem run_result : θ_run defs (onTc (τ := τ) (main (F := F))) ⟨m, fun _ => 0, ρ⟩ (fun r => ∀ c : Dev nD,
      r.2.mem ((c.tc : Thread nD τ).loc main_v2) = tailVal ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v2 main_v2_rest).trans (Wend_result m c),
      ((h c).1 0).trans (((dats m 0 c).arrAt_in 0 rfl _).trans (A_eq m c 0)),
      ((h c).1 4).trans (((dats m 0 c).arrAt_in 4 rfl _).trans (A_eq m c 4)),
      ((h c).1 8).trans (((dats m 0 c).arrAt_in 8 rfl _).trans (A_eq m c 8))⟩) (run_main m ρ)

/-- The frame: the run terminates with the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.Spec.lean ====
/-
  The loss both programs compute, over the extended reals, as plain sums over literal index ranges.

  For N = 131072 points x_n in ℝ¹²⁸, M = 128 centres μ_j and weights r[n, j]:
      term n j   =  r[n, j] · max((‖x_n‖² + ‖μ_j‖²) − 2 · (x_n · μ_j), 0)
      loss       =  (Σ_n Σ_j term n j) / 131072.
  The kernel cuts the points into 16 grid steps of 4 sub-blocks of 2048 rows; step t leaves the row vector
      part t j   =  ((s 0 + s 1) + s 2) + s 3,      s k = Σ_{row < 2048} term ((4t + k)·2048 + row) j,
  and the host sums all 16·128 entries. Addition on the extended reals is commutative and associative, so the
  two totals agree with no finiteness assumption (`total_eq`).
  The literal 2.0 is kept as its bit pattern: the same word stands on both sides and is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of X and r, of mus, and of the kernel's per-step partial results. -/
abbrev SX : Shape := ⟨2, ![131072, 128]⟩
abbrev SM : Shape := ⟨2, ![128, 128]⟩
abbrev SP : Shape := ⟨3, ![16, 1, 128]⟩

/-- The literal 2.0, as both programs print it. -/
def two : EReal := Ideal.ofBits .f32 0x40000000#32

/-- ‖x_n‖². -/
def sqX (X : SX.Idx → EReal) (n : Fin 131072) : EReal := ∑ d : Fin 128, X (ix2 n d) * X (ix2 n d)
/-- ‖μ_j‖². -/
def sqM (M : SM.Idx → EReal) (j : Fin 128) : EReal := ∑ d : Fin 128, M (ix2 j d) * M (ix2 j d)
/-- x_n · μ_j. -/
def cross (X : SX.Idx → EReal) (M : SM.Idx → EReal) (n : Fin 131072) (j : Fin 128) : EReal :=
  ∑ d : Fin 128, X (ix2 n d) * M (ix2 j d)

/-- The weighted clamped squared distance of point n to centre j. -/
def term (X R : SX.Idx → EReal) (M : SM.Idx → EReal) (n : Fin 131072) (j : Fin 128) : EReal :=
  R (ix2 n j) * max ((sqX X n + sqM M j) - two * cross X M n j) 0

/-- Row `row` of sub-block `k` of grid step `t`. -/
def rowOf (t : Fin 16) (k : Fin 4) (row : Fin 2048) : Fin 131072 :=
  ⟨(4 * t.val + k.val) * 2048 + row.val, by have := t.isLt; have := k.isLt; have := row.isLt; omega⟩

/-- One sub-block's column sums. -/
def subSum (X R : SX.Idx → EReal) (M : SM.Idx → EReal) (t : Fin 16) (k : Fin 4) (j : Fin 128) : EReal :=
  ∑ row : Fin 2048, term X R M (rowOf t k row) j

/-- What grid step t leaves at column j: the four sub-blocks' column sums, added left to right. -/
def part (X R : SX.Idx → EReal) (M : SM.Idx → EReal) (t : Fin 16) (j : Fin 128) : EReal :=
  ((subSum X R M t 0 j + subSum X R M t 1 j) + subSum X R M t 2 j) + subSum X R M t 3 j

/-- The kernel's [16, 1, 128] array of partial results. -/
def parts (X R : SX.Idx → EReal) (M : SM.Idx → EReal) : SP.Idx → EReal := fun i => part X R M (i 0) (i 2)

/-- The reference's [131072, 128] array of terms. -/
def terms (X R : SX.Idx → EReal) (M : SM.Idx → EReal) : SX.Idx → EReal := fun i => term X R M (i 0) (i 1)

end Cert.Spec

end
-- ==== Proof.Ref.Value.lean ====
/-
  The reference's array of terms. Read at an index (n, j), the reference's product before its final sum is
      r[n, j] · max((‖x_n‖² + ‖μ_j‖²) − 2 · (x_n · μ_j), 0),
  the specification's term: the squared norms are row sums of squares (each with initial value 0), the cross
  term is the contraction of x_n with column j of the transposed centres, which is row j of the centres.
-/
import proofs.«104884_g7499012899433_feedfinal_73_15_alg».proof.Proof.Gen.ReferenceIdeal.Read
import proofs.«104884_g7499012899433_feedfinal_73_15_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's [131072, 128] product array is the specification's array of terms. -/
theorem ref_terms (X R : (⟨Cert.ReferenceIdeal.S131072x128, .f32⟩ : BufTy).Contents (Elt Ideal))
    (M : (⟨Cert.ReferenceIdeal.S128x128, .f32⟩ : BufTy).Contents (Elt Ideal)) :
    Cert.ReferenceIdeal.Read.val_main_v16 (F := Ideal) X R M = Cert.Spec.terms X R M := by
  funext i
  obtain ⟨n, j, rfl⟩ : ∃ n j, i = ix2 n j := ⟨i 0, i 1, eq_ix2 i⟩
  rw [val_main_v16_apply, val_main_v15_apply, val_main_v13_apply, val_main_v10_apply, val_main_v8_apply,
    val_main_v6_apply, val_main_v1_apply, val_main_v9_apply, val_main_v7_apply, val_main_v3_apply,
    val_main_v12_apply, val_main_v11_apply, val_main_v5_apply, val_main_v14_apply,
    val_main_cst_apply, val_main_cst_0_apply, val_main_cst_1_apply, val_main_cst_2_apply]
  have e1 : ∀ k : Fin 128, idx_main_v1 (idx_main_v6 (idx_main_v8 (ix2 n j))) k = ix2 n k := fun k =>
    funext fun a => Fin.ext (by match a with | ⟨0, _⟩ => rfl | ⟨1, _⟩ => rfl)
  have e3 : ∀ k : Fin 128, idx_main_v3 (idx_main_v7 (idx_main_v9 (ix2 n j))) k = ix2 j k := fun k =>
    funext fun a => Fin.ext (by match a with | ⟨0, _⟩ => rfl | ⟨1, _⟩ => rfl)
  have el : ∀ k : Fin 128, lidx_main_v5 (ix2 n j) k = ix2 n k := fun k =>
    funext fun a => Fin.ext (by match a with | ⟨0, _⟩ => rfl | ⟨1, _⟩ => rfl)
  have er : ∀ k : Fin 128, idx_main_v4 (ridx_main_v5 (ix2 n j) k) = ix2 j k := fun k =>
    funext fun a => Fin.ext (by match a with | ⟨0, _⟩ => rfl | ⟨1, _⟩ => rfl)
  simp only [val_main_v0_apply, val_main_v2_apply, val_main_v4_apply, e1, e3, el, er,
    Ideal.ofBits_def, Ideal.addf_def, Ideal.subf_def, Ideal.mulf_def, Ideal.maximumf_def,
    Ideal.ofBits_zero_f32, zero_add]
  rfl

end Cert.ReferenceIdeal.RefValue

end
-- ==== Proof.SpecSum.lean ====
/-
  The two totals agree: the sum of the kernel's [16, 1, 128] partial results is the sum of the reference's
  [131072, 128] terms. Only commutativity and associativity of addition on the extended reals are used.

  The rows n < 131072 are in bijection with the triples (t, k, row), t < 16, k < 4, row < 2048, through
  n = (4t + k)·2048 + row. A grid step's entry at column j is the sum over k and row of the terms of its rows,
  so the sum over (t, j) of the entries is the sum over (t, j, k, row), which after exchanging the order of summation
  and re-indexing the rows is the sum over (n, j).
-/
import proofs.«104884_g7499012899433_feedfinal_73_15_alg».proof.Proof.Spec
import Mathlib.Algebra.BigOperators.Fin
import Mathlib.Algebra.BigOperators.Group.Finset.Sigma
import Mathlib.Logic.Equiv.Fin.Basic

noncomputable section

open scoped BigOperators

namespace Cert.Spec

open Idealize.ShloMosaic Idealize.ShloMosaic.ValueIdx

/-- An index of the [16, 1, 128] array is its first and last coordinate: the middle one is 0. -/
def idxEquivP : SP.Idx ≃ Fin 16 × Fin 128 where
  toFun i := (i 0, i 2)
  invFun p := ix3 p.1 (0 : Fin 1) p.2
  left_inv i := by
    funext a
    match a with
    | ⟨0, _⟩ => rfl
    | ⟨1, _⟩ => exact (Subsingleton.elim (α := Fin 1) _ _)
    | ⟨2, _⟩ => rfl
  right_inv _ := rfl

/-- A sum over the [16, 1, 128] index set is the double sum over the grid step and the column. -/
theorem sum_idxP (f : SP.Idx → EReal) :
    ∑ i, f i = ∑ t : Fin 16, ∑ j : Fin 128, f (ix3 t (0 : Fin 1) j) := by
  rw [← Equiv.sum_comp idxEquivP.symm f, Fintype.sum_prod_type]
  rfl

/-- The rows are the triples (grid step, sub-block, row in the sub-block). -/
def rowEquiv : Fin 16 × Fin 4 × Fin 2048 ≃ Fin 131072 where
  toFun p := rowOf p.1 p.2.1 p.2.2
  invFun n :=
    (⟨n.val / 8192, by have := n.isLt; omega⟩, ⟨n.val / 2048 % 4, by omega⟩, ⟨n.val % 2048, by omega⟩)
  left_inv := by
    rintro ⟨t, k, r⟩
    have ht := t.isLt; have hk := k.isLt; have hr := r.isLt
    refine Prod.ext (Fin.ext ?_) (Prod.ext (Fin.ext ?_) (Fin.ext ?_))
    · show ((4 * t.val + k.val) * 2048 + r.val) / 8192 = t.val
      omega
    · show ((4 * t.val + k.val) * 2048 + r.val) / 2048 % 4 = k.val
      omega
    · show ((4 * t.val + k.val) * 2048 + r.val) % 2048 = r.val
      omega
  right_inv := by
    intro n
    have hn := n.isLt
    refine Fin.ext ?_
    show (4 * (n.val / 8192) + n.val / 2048 % 4) * 2048 + n.val % 2048 = n.val
    omega

/-- A sum over the rows is the triple sum over grid step, sub-block and row in the sub-block. -/
theorem sum_rows (g : Fin 131072 → EReal) :
    ∑ n : Fin 131072, g n = ∑ t : Fin 16, ∑ k : Fin 4, ∑ row : Fin 2048, g (rowOf t k row) := by
  rw [← Equiv.sum_comp rowEquiv g, Fintype.sum_prod_type]
  refine Finset.sum_congr rfl fun t _ => ?_
  rw [Fintype.sum_prod_type]
  rfl

/-- What a grid step leaves at a column is the sum over its four sub-blocks. -/
theorem part_eq_sum (X R : SX.Idx → EReal) (M : SM.Idx → EReal) (t : Fin 16) (j : Fin 128) :
    part X R M t j = ∑ k : Fin 4, ∑ row : Fin 2048, term X R M (rowOf t k row) j := by
  rw [Fin.sum_univ_four]
  rfl

/-- The sum of all partial results is the sum of all terms. -/
theorem total_eq (X R : SX.Idx → EReal) (M : SM.Idx → EReal) :
    (∑ i : SP.Idx, parts X R M i) = ∑ i : SX.Idx, terms X R M i := by
  rw [sum_idxP, sum_idx2]
  show (∑ t : Fin 16, ∑ j : Fin 128, part X R M t j) = ∑ n : Fin 131072, ∑ j : Fin 128, term X R M n j
  rw [Finset.sum_comm (s := (Finset.univ : Finset (Fin 131072))), Finset.sum_comm (s := (Finset.univ : Finset (Fin 16)))]
  refine Finset.sum_congr rfl fun j _ => ?_
  rw [sum_rows (fun n => term X R M n j)]
  refine Finset.sum_congr rfl fun t _ => ?_
  exact part_eq_sum X R M t j

end Cert.Spec

end
-- ==== Proof.SpecBlock.lean ====
/-
  One 2048-row sub-block's contribution, as a function of the sub-block itself: for a block x of 2048 points,
  the matching block r of weights and the centres μ,
      colSum x r μ j  =  Σ_{row < 2048} r[row, j] · max((‖x_row‖² + ‖μ_j‖²) − 2 · (x_row · μ_j), 0).
  When x and r are rows (4t+k)·2048 … of X and R this is `subSum X R M t k j`.
-/
import proofs.«104884_g7499012899433_feedfinal_73_15_alg».proof.Proof.Spec

noncomputable section

namespace Cert.Spec

open Idealize.ShloMosaic Idealize.ShloMosaic.ValueIdx

/-- The shape of one sub-block. -/
abbrev SB : Shape := ⟨2, ![2048, 128]⟩

/-- One sub-block's column sum at column j. -/
def colSum (x r : SB.Idx → EReal) (mu : SM.Idx → EReal) (j : Fin 128) : EReal :=
  ∑ row : Fin 2048, r (ix2 row j) *
    max (((∑ d : Fin 128, x (ix2 row d) * x (ix2 row d)) + (∑ d : Fin 128, mu (ix2 j d) * mu (ix2 j d)))
          - two * (∑ d : Fin 128, x (ix2 row d) * mu (ix2 j d))) 0

end Cert.Spec

end
-- ==== Proof.KI.OutValAt.lean ====
/-
  The reading of the body's stored row vector at column j, as a statement: the four sub-blocks' column sums,
  added left to right. Stated once, so that the lemma proving it and the lemma using it speak of one proposition.
-/
import proofs.«104884_g7499012899433_feedfinal_73_15_alg».proof.Proof.KI.Data
import proofs.«104884_g7499012899433_feedfinal_73_15_alg».proof.Proof.SpecBlock
import Idealize.ShloMosaic.Lib.ValueIdx

noncomputable section

namespace Cert.KernelIdeal.HandValue

open Cert.KernelIdeal Cert.KernelIdeal.Gen Cert.KernelIdeal.Hand Idealize.ShloMosaic Idealize.ShloMosaic.ValueIdx

/-- At the ideal values the stored row vector at column j is the sum of the four sub-blocks' column sums. -/
def OutValAt : Prop :=
  ∀ (x0 x1 x2 x3 r0 r1 r2 r3 : Vec Ideal S2048x128 .f32) (mu : Vec Ideal S128x128 .f32) (j : Fin 128),
    outVal (F := Ideal) x0 x1 x2 x3 r0 r1 r2 r3 mu (ix3 0 0 j)
      = ((Cert.Spec.colSum x0 r0 mu j + Cert.Spec.colSum x1 r1 mu j) + Cert.Spec.colSum x2 r2 mu j) + Cert.Spec.colSum x3 r3 mu j

end Cert.KernelIdeal.HandValue

end
-- ==== Proof.KI.OutVal.lean ====
/-
  The row vector the body stores, read at column j at the ideal values.

  Each of the four sub-blocks (x, r) contributes, with the centres μ,
      Σ_{row < 2048} r[row, j] · max((‖x_row‖² + ‖μ_j‖²) − 2 · (x_row · μ_j), 0),
  and the four are added left to right. The pieces: the squared row norms are lane sums kept as a column and spread
  along the rows; the squared centre norms are lane sums kept as a column, transposed to a row and spread along the
  columns; the cross term is a product of x with μ contracting the second axis of both; the column sum is a lane sum
  over the first axis.
-/
import proofs.«104884_g7499012899433_feedfinal_73_15_alg».proof.Proof.KI.Data
import proofs.«104884_g7499012899433_feedfinal_73_15_alg».proof.Proof.KI.OutValAt
import proofs.«104884_g7499012899433_feedfinal_73_15_alg».proof.Proof.SpecBlock
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen Cert.KernelIdeal.Hand Idealize.ShloMosaic Idealize.ShloMosaic.ValueIdx

/-! ## Layout operations that keep a reduced axis as a unit axis -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- An `[a]` array cast to `[1, 1, a]` reads, at `(u, v, i)`, the operand at `i`. -/
theorem shapeCast_a_11a_apply {α : Type} {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp only [Nat.zero_mul, Nat.zero_add, Nat.mul_one, Nat.add_zero])

/-! ## The lane sums -/

/-- A lane sum along the second axis of a 2048×128 block, at row p. -/
theorem rowSum2048_at (y : FVec Ideal S2048x128 .f32) (h : S2048x128.Reduces [1] S2048) (hφ : FKind.Formats .f32)
    (hacc : (0x00000000#32 : BitVec FTy.f32.bits) = FKind.add.neutral .f32 hφ) (p : Fin 2048) :
    multiReduction (F := Ideal) .add [1] S2048 y 0x00000000#32 h hφ hacc (ix1 p) = ∑ d : Fin 128, y (ix2 p d) := by
  refine (Ideal.multiReduction_add_single y 0x00000000#32 h hφ hacc (ix1 p)).trans ?_
  refine Finset.sum_congr rfl fun d _ => congrArg y ?_
  funext a; apply Fin.ext; match a with | ⟨0, _⟩ => rfl | ⟨1, _⟩ => rfl

/-- A lane sum along the second axis of a 128×128 block, at row q. -/
theorem rowSum128_at (y : FVec Ideal S128x128 .f32) (h : S128x128.Reduces [1] S128) (hφ : FKind.Formats .f32)
    (hacc : (0x00000000#32 : BitVec FTy.f32.bits) = FKind.add.neutral .f32 hφ) (q : Fin 128) :
    multiReduction (F := Ideal) .add [1] S128 y 0x00000000#32 h hφ hacc (ix1 q) = ∑ d : Fin 128, y (ix2 q d) := by
  refine (Ideal.multiReduction_add_single y 0x00000000#32 h hφ hacc (ix1 q)).trans ?_
  refine Finset.sum_congr rfl fun d _ => congrArg y ?_
  funext a; apply Fin.ext; match a with | ⟨0, _⟩ => rfl | ⟨1, _⟩ => rfl

/-- A lane sum along the first axis of a 2048×128 block, at column j. -/
theorem colSum2048_at (y : FVec Ideal S2048x128 .f32) (h : S2048x128.Reduces [0] S128) (hφ : FKind.Formats .f32)
    (hacc : (0x00000000#32 : BitVec FTy.f32.bits) = FKind.add.neutral .f32 hφ) (j : Fin 128) :
    multiReduction (F := Ideal) .add [0] S128 y 0x00000000#32 h hφ hacc (ix1 j) = ∑ row : Fin 2048, y (ix2 row j) := by
  refine (Ideal.multiReduction_add_single y 0x00000000#32 h hφ hacc (ix1 j)).trans ?_
  refine Finset.sum_congr rfl fun d _ => congrArg y ?_
  funext a; apply Fin.ext; match a with | ⟨0, _⟩ => rfl | ⟨1, _⟩ => rfl

/-! ## The cross term

The product contracts the second axis of both operands: the entry at (p, q) is Σ_d x[p, d] · μ[q, d]. -/

theorem lhs_dot_0 (i : S2048x128.Idx) (q : dot_S2048x128_S128x128_S2048x128_1_1_0_0_n_n.contr.Idx) :
    (dot_S2048x128_S128x128_S2048x128_1_1_0_0_n_n.lhsIdx i q 0).val = (i 0).val := by
  unfold DotDims.lhsIdx
  rw [dif_neg (show ¬(0 : Fin S2048x128.rank) ∈ dot_S2048x128_S128x128_S2048x128_1_1_0_0_n_n.lhsBatch by decide), dif_pos (show (0 : Fin S2048x128.rank) ∈ dot_S2048x128_S128x128_S2048x128_1_1_0_0_n_n.lhsNonContracting by decide)]
  rfl
theorem lhs_dot_1 (i : S2048x128.Idx) (q : dot_S2048x128_S128x128_S2048x128_1_1_0_0_n_n.contr.Idx) :
    (dot_S2048x128_S128x128_S2048x128_1_1_0_0_n_n.lhsIdx i q 1).val = (q ⟨0, by decide⟩).val :=
  dot_S2048x128_S128x128_S2048x128_1_1_0_0_n_n.lhsIdx_val_of_single rfl i q
theorem rhs_dot_0 (i : S2048x128.Idx) (q : dot_S2048x128_S128x128_S2048x128_1_1_0_0_n_n.contr.Idx) :
    (dot_S2048x128_S128x128_S2048x128_1_1_0_0_n_n.rhsIdx i q 0).val = (i 1).val := by
  unfold DotDims.rhsIdx
  rw [dif_neg (show ¬(0 : Fin S128x128.rank) ∈ dot_S2048x128_S128x128_S2048x128_1_1_0_0_n_n.rhsBatch by decide), dif_pos (show (0 : Fin S128x128.rank) ∈ dot_S2048x128_S128x128_S2048x128_1_1_0_0_n_n.rhsNonContracting by decide)]
  rfl
theorem rhs_dot_1 (i : S2048x128.Idx) (q : dot_S2048x128_S128x128_S2048x128_1_1_0_0_n_n.contr.Idx) :
    (dot_S2048x128_S128x128_S2048x128_1_1_0_0_n_n.rhsIdx i q 1).val = (q ⟨0, by decide⟩).val :=
  dot_S2048x128_S128x128_S2048x128_1_1_0_0_n_n.rhsIdx_val_of_single rfl i q

/-- The product's entry at (p, q). -/
theorem cross_at (x : FVec Ideal S2048x128 .f32) (mu : FVec Ideal S128x128 .f32) (p : Fin 2048) (q : Fin 128) :
    matmul dot_S2048x128_S128x128_S2048x128_1_1_0_0_n_n none x mu (constant (F := Ideal) S2048x128 .f32 0x00000000#32) (ix2 p q)
      = ∑ d : Fin 128, x (ix2 p d) * mu (ix2 q d) := by
  simp only [matmul]
  rw [Ideal.matmul_constant_zero_apply, ← Equiv.sum_comp (ValueIdx.contrEquiv1 dot_S2048x128_S128x128_S2048x128_1_1_0_0_n_n 128 rfl rfl).symm]
  refine Finset.sum_congr rfl fun k _ => ?_
  have hk := ValueIdx.contrEquiv1_symm_val dot_S2048x128_S128x128_S2048x128_1_1_0_0_n_n 128 rfl rfl k
  have el : dot_S2048x128_S128x128_S2048x128_1_1_0_0_n_n.lhsIdx (ix2 p q) ((ValueIdx.contrEquiv1 dot_S2048x128_S128x128_S2048x128_1_1_0_0_n_n 128 rfl rfl).symm k) = ix2 p k := funext fun a => Fin.ext (by
    match a with
    | ⟨0, _⟩ => exact lhs_dot_0 _ _
    | ⟨1, _⟩ => exact (lhs_dot_1 _ _).trans hk)
  have er : dot_S2048x128_S128x128_S2048x128_1_1_0_0_n_n.rhsIdx (ix2 p q) ((ValueIdx.contrEquiv1 dot_S2048x128_S128x128_S2048x128_1_1_0_0_n_n 128 rfl rfl).symm k) = ix2 q k := funext fun a => Fin.ext (by
    match a with
    | ⟨0, _⟩ => exact rhs_dot_0 _ _
    | ⟨1, _⟩ => exact (rhs_dot_1 _ _).trans hk)
  rw [el, er]

/-! ## The centre norms as a row -/

/-- The squared centre norms, as the row the body keeps: the entry at (0, q) is ‖μ_q‖². -/
theorem pay1_at (mu : FVec Ideal S128x128 .f32) (q : Fin 128) :
    k0_pay1 (F := Ideal) mu (ix2 (0 : Fin 1) q) = ∑ d : Fin 128, mu (ix2 q d) * mu (ix2 q d) := by
  unfold k0_pay1
  refine (transpose_ix2_apply _ _ (0 : Fin 1) q).trans ?_
  refine (shapeCast_a_a1_apply _ _ q (0 : Fin 1)).trans ?_
  exact (rowSum128_at _ _ _ _ q).trans (Finset.sum_congr rfl fun d _ => rfl)

/-! ## One sub-block's column sum -/

/-- One sub-block's contribution at column j, given the row v4 of squared centre norms. -/
theorem blockSum_at (x r : FVec Ideal S2048x128 .f32) (mu : FVec Ideal S128x128 .f32) (v4 : FVec Ideal S1x128 .f32)
    (hv4 : ∀ q : Fin 128, v4 (ix2 (0 : Fin 1) q) = ∑ d : Fin 128, mu (ix2 q d) * mu (ix2 q d))
    (h1 : S2048x128.Reduces [1] S2048) (hφ : FKind.Formats .f32)
    (hacc : (0x00000000#32 : BitVec FTy.f32.bits) = FKind.add.neutral .f32 hφ)
    (h2 : S2048.ShapeCasts S2048x1) (h3 : S2048x1.Broadcasts S2048x128) (h4 : S1x128.Broadcasts S2048x128)
    (h5 : S2048x128.Reduces [0] S128) (j : Fin 128) :
    multiReduction (F := Ideal) .add [0] S128
      (mulf r (maximumf (subf (addf (broadcastTo S2048x128 (shapeCast S2048x1 (multiReduction (F := Ideal) .add [1] S2048 (mulf x x) 0x00000000#32 h1 hφ hacc) h2) h3) (broadcastTo S2048x128 v4 h4))
          (mulf (broadcast S2048x128 (Scalar.ofBits (F := Ideal) .f32 0x40000000#32)) (matmul dot_S2048x128_S128x128_S2048x128_1_1_0_0_n_n none x mu (constant (F := Ideal) S2048x128 .f32 0x00000000#32))))
        (broadcast S2048x128 (Scalar.ofBits (F := Ideal) .f32 0x00000000#32))))
      0x00000000#32 h5 hφ hacc (ix1 j)
    = Cert.Spec.colSum x r mu j := by
  refine (colSum2048_at _ h5 hφ hacc j).trans ?_
  unfold Cert.Spec.colSum
  refine Finset.sum_congr rfl fun row _ => ?_
  have hA : broadcastTo S2048x128 (shapeCast S2048x1 (multiReduction (F := Ideal) .add [1] S2048 (mulf x x) 0x00000000#32 h1 hφ hacc) h2) h3 (ix2 row j)
      = ∑ d : Fin 128, x (ix2 row d) * x (ix2 row d) := by
    refine (broadcastTo_a1_ab_apply _ h3 row j).trans ?_
    refine (shapeCast_a_a1_apply _ h2 row (0 : Fin 1)).trans ?_
    exact (rowSum2048_at _ h1 hφ hacc row).trans (Finset.sum_congr rfl fun d _ => rfl)
  have hB : broadcastTo S2048x128 v4 h4 (ix2 row j) = ∑ d : Fin 128, mu (ix2 j d) * mu (ix2 j d) :=
    (broadcastTo_1b_ab_apply v4 h4 row j).trans (hv4 j)
  have hC := cross_at x mu row j
  simp only [mulf_apply, maximumf_apply, subf_apply, addf_apply, broadcast_apply, hA, hB, hC]
  simp only [Ideal.ofBits_def, Ideal.ofBits_zero_f32]
  rfl

/-! ## The payloads at an index -/

/-- The first sub-block's column sums. -/
theorem pay2_at (mu : FVec Ideal S128x128 .f32) (x r : FVec Ideal S2048x128 .f32) (j : Fin 128) :
    k0_pay2 (F := Ideal) mu x r (ix1 j) = Cert.Spec.colSum x r mu j := by
  unfold k0_pay2
  exact blockSum_at x r mu (k0_pay1 mu) (pay1_at mu) _ _ _ _ _ _ _ j

/-- The second sub-block's column sums. -/
theorem pay3_at (mu : FVec Ideal S128x128 .f32) (x r : FVec Ideal S2048x128 .f32) (j : Fin 128) :
    k0_pay3 (F := Ideal) mu x r (ix1 j) = Cert.Spec.colSum x r mu j := by
  unfold k0_pay3
  exact blockSum_at x r mu (k0_pay1 mu) (pay1_at mu) _ _ _ _ _ _ _ j

/-- The stored row vector at (0, 0, j): the first two sub-blocks' column sums, then the third's and the fourth's, added
    left to right. -/
theorem pay4_at (mu : FVec Ideal S128x128 .f32) (v4 : FVec Ideal S1x128 .f32)
    (hv4 : ∀ q : Fin 128, v4 (ix2 (0 : Fin 1) q) = ∑ d : Fin 128, mu (ix2 q d) * mu (ix2 q d))
    (v20 v36 : FVec Ideal S128 .f32) (x2 r2 x3 r3 : FVec Ideal S2048x128 .f32) (j : Fin 128) :
    k0_pay4 (F := Ideal) mu v4 v20 v36 x2 r2 x3 r3 (ix3 (0 : Fin 1) (0 : Fin 1) j)
      = ((v20 (ix1 j) + v36 (ix1 j)) + Cert.Spec.colSum x2 r2 mu j) + Cert.Spec.colSum x3 r3 mu j := by
  unfold k0_pay4
  refine (shapeCast_a_11a_apply _ _ (0 : Fin 1) (0 : Fin 1) j).trans ?_
  simp only [addf_apply]
  exact congrArg₂ (· + ·) (congrArg (_ + ·) (blockSum_at x2 r2 mu v4 hv4 _ _ _ _ _ _ _ j)) (blockSum_at x3 r3 mu v4 hv4 _ _ _ _ _ _ _ j)

/-! ## The whole-block loads -/

theorem zeros2 : (![0, 0] : Fin 2 → Nat) = fun _ => 0 :=
  funext fun a => by match a with | ⟨0, _⟩ => rfl | ⟨1, _⟩ => rfl

/-- A load of the whole 2048×128 block reads the block. -/
theorem ld_wholeX (x : Vec Ideal S2048x128 .f32) : View.ld x rX = x :=
  View.ld_unit_zero (S := S2048x128) zeros2 _ x

/-- A load of the whole 128×128 block reads the block. -/
theorem ld_wholeM (mu : Vec Ideal S128x128 .f32) : View.ld mu rM = mu :=
  View.ld_unit_zero (S := S128x128) zeros2 _ mu

/-! ## The stored row vector -/

/-- At the ideal values the stored row vector at column j is the sum of the four sub-blocks' column sums. -/
theorem outVal_at : OutValAt := by
  intro x0 x1 x2 x3 r0 r1 r2 r3 mu j
  unfold outVal
  simp only [ld_wholeX, ld_wholeM]
  refine (pay4_at mu (k0_pay1 mu) (pay1_at mu) _ _ x2 r2 x3 r3 j).trans ?_
  rw [pay2_at, pay3_at]

end Cert.KernelIdeal.HandValue

end
-- ==== Proof.KI.Final.lean ====
/-
  From the output window's blocks to the whole [16, 1, 128] array of partial results.

  Grid point t stages sub-block k of X and of r at block row 4t + k (k = 0, 1, 2, 3), all of the centres, and
  writes its row vector to block (t, 0, 0) of the result. A block's coordinate in its array is the block index
  times the block's extent plus the coordinate inside the block, so sub-block k at point t is rows
  (4t + k)·2048 … of its array: its column sum is the specification's sub-block sum, the stored row vector is
  the specification's partial result at t, and the sixteen blocks tile the array.
-/
import proofs.«104884_g7499012899433_feedfinal_73_15_alg».proof.Proof.KI.OutValAt
import proofs.«104884_g7499012899433_feedfinal_73_15_alg».proof.Proof.SpecBlock
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.ValueIdx Idealize.ShloMosaic.TcCoe
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl

/-! ## The block indices, decided over the sixteen grid points -/

theorem idx_in0 : ∀ t : Fin cfg0.N, win0_0.index t (0 : Fin 2) = 4 * t.val + 0 ∧ win0_0.index t (1 : Fin 2) = 0 :=
  (by decide +kernel : ∀ t : Fin grid0.N, _)

theorem idx_in1 : ∀ t : Fin cfg0.N, win0_1.index t (0 : Fin 2) = 4 * t.val + 1 ∧ win0_1.index t (1 : Fin 2) = 0 :=
  (by decide +kernel : ∀ t : Fin grid0.N, _)

theorem idx_in2 : ∀ t : Fin cfg0.N, win0_2.index t (0 : Fin 2) = 4 * t.val + 2 ∧ win0_2.index t (1 : Fin 2) = 0 :=
  (by decide +kernel : ∀ t : Fin grid0.N, _)

theorem idx_in3 : ∀ t : Fin cfg0.N, win0_3.index t (0 : Fin 2) = 4 * t.val + 3 ∧ win0_3.index t (1 : Fin 2) = 0 :=
  (by decide +kernel : ∀ t : Fin grid0.N, _)

theorem idx_in4 : ∀ t : Fin cfg0.N, win0_4.index t (0 : Fin 2) = 4 * t.val + 0 ∧ win0_4.index t (1 : Fin 2) = 0 :=
  (by decide +kernel : ∀ t : Fin grid0.N, _)

theorem idx_in5 : ∀ t : Fin cfg0.N, win0_5.index t (0 : Fin 2) = 4 * t.val + 1 ∧ win0_5.index t (1 : Fin 2) = 0 :=
  (by decide +kernel : ∀ t : Fin grid0.N, _)

theorem idx_in6 : ∀ t : Fin cfg0.N, win0_6.index t (0 : Fin 2) = 4 * t.val + 2 ∧ win0_6.index t (1 : Fin 2) = 0 :=
  (by decide +kernel : ∀ t : Fin grid0.N, _)

theorem idx_in7 : ∀ t : Fin cfg0.N, win0_7.index t (0 : Fin 2) = 4 * t.val + 3 ∧ win0_7.index t (1 : Fin 2) = 0 :=
  (by decide +kernel : ∀ t : Fin grid0.N, _)

theorem idx_in8 : ∀ t : Fin cfg0.N, win0_8.index t (0 : Fin 2) = 0 ∧ win0_8.index t (1 : Fin 2) = 0 :=
  (by decide +kernel : ∀ t : Fin grid0.N, _)

theorem idx_out : ∀ t : Fin cfg0.N, win0_9.index t (0 : Fin 3) = t.val ∧ win0_9.index t (1 : Fin 3) = 0 ∧ win0_9.index t (2 : Fin 3) = 0 :=
  (by decide +kernel : ∀ t : Fin grid0.N, _)

/-! ## Each staged block, read at a coordinate, is its array at the block's offset -/

theorem iblk0_at (c : Dev nD) (t : Fin cfg0.N) (p : Fin 2048) (q : Fin 128) (n : Fin 131072)
    (hn : n.val = (4 * t.val + 0) * 2048 + p.val) :
    iblk m c 0 t (ix2 p q) = m ((c : Thread nD τ).loc main_arg0) (ix2 n q) := by
  show V m c main_arg0 (((cfg0.win 0).blk t).view.emb (ix2 p q)) = V m c main_arg0 (ix2 n q)
  obtain ⟨e0, e1⟩ := idx_in0 t
  congr 1
  funext a; apply Fin.ext
  match a with
  | ⟨0, _⟩ => show win0_0.index t (0 : Fin 2) * 2048 + 1 * p.val = n.val; omega
  | ⟨1, _⟩ => show win0_0.index t (1 : Fin 2) * 128 + 1 * q.val = q.val; omega

theorem iblk1_at (c : Dev nD) (t : Fin cfg0.N) (p : Fin 2048) (q : Fin 128) (n : Fin 131072)
    (hn : n.val = (4 * t.val + 1) * 2048 + p.val) :
    iblk m c 1 t (ix2 p q) = m ((c : Thread nD τ).loc main_arg0) (ix2 n q) := by
  show V m c main_arg0 (((cfg0.win 1).blk t).view.emb (ix2 p q)) = V m c main_arg0 (ix2 n q)
  obtain ⟨e0, e1⟩ := idx_in1 t
  congr 1
  funext a; apply Fin.ext
  match a with
  | ⟨0, _⟩ => show win0_1.index t (0 : Fin 2) * 2048 + 1 * p.val = n.val; omega
  | ⟨1, _⟩ => show win0_1.index t (1 : Fin 2) * 128 + 1 * q.val = q.val; omega

theorem iblk2_at (c : Dev nD) (t : Fin cfg0.N) (p : Fin 2048) (q : Fin 128) (n : Fin 131072)
    (hn : n.val = (4 * t.val + 2) * 2048 + p.val) :
    iblk m c 2 t (ix2 p q) = m ((c : Thread nD τ).loc main_arg0) (ix2 n q) := by
  show V m c main_arg0 (((cfg0.win 2).blk t).view.emb (ix2 p q)) = V m c main_arg0 (ix2 n q)
  obtain ⟨e0, e1⟩ := idx_in2 t
  congr 1
  funext a; apply Fin.ext
  match a with
  | ⟨0, _⟩ => show win0_2.index t (0 : Fin 2) * 2048 + 1 * p.val = n.val; omega
  | ⟨1, _⟩ => show win0_2.index t (1 : Fin 2) * 128 + 1 * q.val = q.val; omega

theorem iblk3_at (c : Dev nD) (t : Fin cfg0.N) (p : Fin 2048) (q : Fin 128) (n : Fin 131072)
    (hn : n.val = (4 * t.val + 3) * 2048 + p.val) :
    iblk m c 3 t (ix2 p q) = m ((c : Thread nD τ).loc main_arg0) (ix2 n q) := by
  show V m c main_arg0 (((cfg0.win 3).blk t).view.emb (ix2 p q)) = V m c main_arg0 (ix2 n q)
  obtain ⟨e0, e1⟩ := idx_in3 t
  congr 1
  funext a; apply Fin.ext
  match a with
  | ⟨0, _⟩ => show win0_3.index t (0 : Fin 2) * 2048 + 1 * p.val = n.val; omega
  | ⟨1, _⟩ => show win0_3.index t (1 : Fin 2) * 128 + 1 * q.val = q.val; omega

theorem iblk4_at (c : Dev nD) (t : Fin cfg0.N) (p : Fin 2048) (q : Fin 128) (n : Fin 131072)
    (hn : n.val = (4 * t.val + 0) * 2048 + p.val) :
    iblk m c 4 t (ix2 p q) = m ((c : Thread nD τ).loc main_arg1) (ix2 n q) := by
  show V m c main_arg1 (((cfg0.win 4).blk t).view.emb (ix2 p q)) = V m c main_arg1 (ix2 n q)
  obtain ⟨e0, e1⟩ := idx_in4 t
  congr 1
  funext a; apply Fin.ext
  match a with
  | ⟨0, _⟩ => show win0_4.index t (0 : Fin 2) * 2048 + 1 * p.val = n.val; omega
  | ⟨1, _⟩ => show win0_4.index t (1 : Fin 2) * 128 + 1 * q.val = q.val; omega

theorem iblk5_at (c : Dev nD) (t : Fin cfg0.N) (p : Fin 2048) (q : Fin 128) (n : Fin 131072)
    (hn : n.val = (4 * t.val + 1) * 2048 + p.val) :
    iblk m c 5 t (ix2 p q) = m ((c : Thread nD τ).loc main_arg1) (ix2 n q) := by
  show V m c main_arg1 (((cfg0.win 5).blk t).view.emb (ix2 p q)) = V m c main_arg1 (ix2 n q)
  obtain ⟨e0, e1⟩ := idx_in5 t
  congr 1
  funext a; apply Fin.ext
  match a with
  | ⟨0, _⟩ => show win0_5.index t (0 : Fin 2) * 2048 + 1 * p.val = n.val; omega
  | ⟨1, _⟩ => show win0_5.index t (1 : Fin 2) * 128 + 1 * q.val = q.val; omega

theorem iblk6_at (c : Dev nD) (t : Fin cfg0.N) (p : Fin 2048) (q : Fin 128) (n : Fin 131072)
    (hn : n.val = (4 * t.val + 2) * 2048 + p.val) :
    iblk m c 6 t (ix2 p q) = m ((c : Thread nD τ).loc main_arg1) (ix2 n q) := by
  show V m c main_arg1 (((cfg0.win 6).blk t).view.emb (ix2 p q)) = V m c main_arg1 (ix2 n q)
  obtain ⟨e0, e1⟩ := idx_in6 t
  congr 1
  funext a; apply Fin.ext
  match a with
  | ⟨0, _⟩ => show win0_6.index t (0 : Fin 2) * 2048 + 1 * p.val = n.val; omega
  | ⟨1, _⟩ => show win0_6.index t (1 : Fin 2) * 128 + 1 * q.val = q.val; omega

theorem iblk7_at (c : Dev nD) (t : Fin cfg0.N) (p : Fin 2048) (q : Fin 128) (n : Fin 131072)
    (hn : n.val = (4 * t.val + 3) * 2048 + p.val) :
    iblk m c 7 t (ix2 p q) = m ((c : Thread nD τ).loc main_arg1) (ix2 n q) := by
  show V m c main_arg1 (((cfg0.win 7).blk t).view.emb (ix2 p q)) = V m c main_arg1 (ix2 n q)
  obtain ⟨e0, e1⟩ := idx_in7 t
  congr 1
  funext a; apply Fin.ext
  match a with
  | ⟨0, _⟩ => show win0_7.index t (0 : Fin 2) * 2048 + 1 * p.val = n.val; omega
  | ⟨1, _⟩ => show win0_7.index t (1 : Fin 2) * 128 + 1 * q.val = q.val; omega

theorem iblk8_at (c : Dev nD) (t : Fin cfg0.N) (p : Fin 128) (q : Fin 128) :
    iblk m c 8 t (ix2 p q) = m ((c : Thread nD τ).loc main_arg2) (ix2 p q) := by
  show V m c main_arg2 (((cfg0.win 8).blk t).view.emb (ix2 p q)) = V m c main_arg2 (ix2 p q)
  obtain ⟨e0, e1⟩ := idx_in8 t
  congr 1
  funext a; apply Fin.ext
  match a with
  | ⟨0, _⟩ => show win0_8.index t (0 : Fin 2) * 128 + 1 * p.val = p.val; omega
  | ⟨1, _⟩ => show win0_8.index t (1 : Fin 2) * 128 + 1 * q.val = q.val; omega

/-! ## One sub-block's column sum is the specification's sub-block sum -/

/-- The three argument arrays on core c, as launched. -/
abbrev argX (c : Dev nD) : Cert.Spec.SX.Idx → EReal := m ((c : Thread nD τ).loc main_arg0)
abbrev argR (c : Dev nD) : Cert.Spec.SX.Idx → EReal := m ((c : Thread nD τ).loc main_arg1)
abbrev argM (c : Dev nD) : Cert.Spec.SM.Idx → EReal := m ((c : Thread nD τ).loc main_arg2)

theorem colSum0_eq (c : Dev nD) (t : Fin cfg0.N) (T : Fin 16) (hT : T.val = t.val) (j : Fin 128) :
    Cert.Spec.colSum (iblk m c 0 t) (iblk m c 4 t) (iblk m c 8 t) j
      = Cert.Spec.subSum (argX m c) (argR m c) (argM m c) T 0 j := by
  unfold Cert.Spec.colSum Cert.Spec.subSum Cert.Spec.term Cert.Spec.sqX Cert.Spec.sqM Cert.Spec.cross
  refine Finset.sum_congr rfl fun row _ => ?_
  have hn : (Cert.Spec.rowOf T 0 row).val = (4 * t.val + 0) * 2048 + row.val := by rw [← hT]; rfl
  have hX : ∀ d : Fin 128, iblk m c 0 t (ix2 row d) = argX m c (ix2 (Cert.Spec.rowOf T 0 row) d) :=
    fun d => iblk0_at m c t row d _ hn
  have hR : iblk m c 4 t (ix2 row j) = argR m c (ix2 (Cert.Spec.rowOf T 0 row) j) :=
    iblk4_at m c t row j _ hn
  have hM : ∀ d : Fin 128, iblk m c 8 t (ix2 j d) = argM m c (ix2 j d) := fun d => iblk8_at m c t j d
  simp only [hX, hR, hM]

theorem colSum1_eq (c : Dev nD) (t : Fin cfg0.N) (T : Fin 16) (hT : T.val = t.val) (j : Fin 128) :
    Cert.Spec.colSum (iblk m c 1 t) (iblk m c 5 t) (iblk m c 8 t) j
      = Cert.Spec.subSum (argX m c) (argR m c) (argM m c) T 1 j := by
  unfold Cert.Spec.colSum Cert.Spec.subSum Cert.Spec.term Cert.Spec.sqX Cert.Spec.sqM Cert.Spec.cross
  refine Finset.sum_congr rfl fun row _ => ?_
  have hn : (Cert.Spec.rowOf T 1 row).val = (4 * t.val + 1) * 2048 + row.val := by rw [← hT]; rfl
  have hX : ∀ d : Fin 128, iblk m c 1 t (ix2 row d) = argX m c (ix2 (Cert.Spec.rowOf T 1 row) d) :=
    fun d => iblk1_at m c t row d _ hn
  have hR : iblk m c 5 t (ix2 row j) = argR m c (ix2 (Cert.Spec.rowOf T 1 row) j) :=
    iblk5_at m c t row j _ hn
  have hM : ∀ d : Fin 128, iblk m c 8 t (ix2 j d) = argM m c (ix2 j d) := fun d => iblk8_at m c t j d
  simp only [hX, hR, hM]

theorem colSum2_eq (c : Dev nD) (t : Fin cfg0.N) (T : Fin 16) (hT : T.val = t.val) (j : Fin 128) :
    Cert.Spec.colSum (iblk m c 2 t) (iblk m c 6 t) (iblk m c 8 t) j
      = Cert.Spec.subSum (argX m c) (argR m c) (argM m c) T 2 j := by
  unfold Cert.Spec.colSum Cert.Spec.subSum Cert.Spec.term Cert.Spec.sqX Cert.Spec.sqM Cert.Spec.cross
  refine Finset.sum_congr rfl fun row _ => ?_
  have hn : (Cert.Spec.rowOf T 2 row).val = (4 * t.val + 2) * 2048 + row.val := by rw [← hT]; rfl
  have hX : ∀ d : Fin 128, iblk m c 2 t (ix2 row d) = argX m c (ix2 (Cert.Spec.rowOf T 2 row) d) :=
    fun d => iblk2_at m c t row d _ hn
  have hR : iblk m c 6 t (ix2 row j) = argR m c (ix2 (Cert.Spec.rowOf T 2 row) j) :=
    iblk6_at m c t row j _ hn
  have hM : ∀ d : Fin 128, iblk m c 8 t (ix2 j d) = argM m c (ix2 j d) := fun d => iblk8_at m c t j d
  simp only [hX, hR, hM]

theorem colSum3_eq (c : Dev nD) (t : Fin cfg0.N) (T : Fin 16) (hT : T.val = t.val) (j : Fin 128) :
    Cert.Spec.colSum (iblk m c 3 t) (iblk m c 7 t) (iblk m c 8 t) j
      = Cert.Spec.subSum (argX m c) (argR m c) (argM m c) T 3 j := by
  unfold Cert.Spec.colSum Cert.Spec.subSum Cert.Spec.term Cert.Spec.sqX Cert.Spec.sqM Cert.Spec.cross
  refine Finset.sum_congr rfl fun row _ => ?_
  have hn : (Cert.Spec.rowOf T 3 row).val = (4 * t.val + 3) * 2048 + row.val := by rw [← hT]; rfl
  have hX : ∀ d : Fin 128, iblk m c 3 t (ix2 row d) = argX m c (ix2 (Cert.Spec.rowOf T 3 row) d) :=
    fun d => iblk3_at m c t row d _ hn
  have hR : iblk m c 7 t (ix2 row j) = argR m c (ix2 (Cert.Spec.rowOf T 3 row) j) :=
    iblk7_at m c t row j _ hn
  have hM : ∀ d : Fin 128, iblk m c 8 t (ix2 j d) = argM m c (ix2 j d) := fun d => iblk8_at m c t j d
  simp only [hX, hR, hM]

/-! ## What point t writes back is block t of the partial results -/

theorem flushed9_eq (hout : OutValAt) (c : Dev nD) (t : Fin cfg0.N) :
    (dats (F := Ideal) m 0 c).flushed 9 t
      = ((cfg0.win 9).blk t).view.read (Elt Ideal) (Cert.Spec.parts (argX m c) (argR m c) (argM m c)) := by
  show (cfg0.win 9).cut (grid0.coords t) ((dats m 0 c).after 9 t) = _
  rw [after0_9]
  unfold outBlk
  rw [View.canon_unit_zero zero3]
  obtain ⟨e0, e1, e2⟩ := idx_out t
  refine funext fun (y : S1x1x128.Idx) => ?_
  obtain ⟨j, rfl⟩ : ∃ j : Fin 128, y = ix3 0 0 j := ⟨y 2, by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => rfl⟩
  show outVal (F := Ideal) (iblk m c 0 t) (iblk m c 1 t) (iblk m c 2 t) (iblk m c 3 t) (iblk m c 4 t) (iblk m c 5 t) (iblk m c 6 t) (iblk m c 7 t) (iblk m c 8 t) (ix3 0 0 j)
      = Cert.Spec.parts (argX m c) (argR m c) (argM m c) (((cfg0.win 9).blk t).view.emb (ix3 0 0 j))
  rw [hout]
  have hT : ((((cfg0.win 9).blk t).view.emb (ix3 0 0 j)) 0).val = t.val := by
    show win0_9.index t (0 : Fin 3) * 1 + 1 * 0 = t.val; omega
  have hj : (((cfg0.win 9).blk t).view.emb (ix3 0 0 j)) 2 = j := by
    apply Fin.ext; show win0_9.index t (2 : Fin 3) * 128 + 1 * j.val = j.val; omega
  show _ = Cert.Spec.part (argX m c) (argR m c) (argM m c) ((((cfg0.win 9).blk t).view.emb (ix3 0 0 j)) 0) ((((cfg0.win 9).blk t).view.emb (ix3 0 0 j)) 2)
  rw [hj]
  unfold Cert.Spec.part
  rw [colSum0_eq m c t _ hT j, colSum1_eq m c t _ hT j, colSum2_eq m c t _ hT j, colSum3_eq m c t _ hT j]

/-! ## The sixteen blocks tile the array -/

/-- An index of the array is in point t's block iff each coordinate is in the block's range on its axis. -/
theorem mem_blk9 (t : Fin cfg0.N) (i : S16x1x128.Idx) :
    i ∈ ((cfg0.win 9).blk t).view.set ↔ ∀ a : Fin 3, win0_9.index t a * S1x1x128.size a ≤ (i a).val ∧ (i a).val < win0_9.index t a * S1x1x128.size a + S1x1x128.size a := by
  show i ∈ ((View.whole main_v0).slice (win0_9.rect t)).set ↔ _
  rw [View.set_slice_whole, Rect.mem_set_unit]
  exact Iff.rfl

/-- Row t of the array is point t's block. -/
theorem cover9 (i : S16x1x128.Idx) : ∃ t : Fin cfg0.N, (cfg0.win 9).flush t = true ∧ i ∈ ((cfg0.win 9).blk t).view.set := by
  have h0 : (i 0).val < 16 := (i 0).isLt
  have h1 : (i 1).val < 1 := (i 1).isLt
  have h2 : (i 2).val < 128 := (i 2).isLt
  obtain ⟨t, ht⟩ : ∃ t : Fin cfg0.N, t.val = (i 0).val := ⟨⟨(i 0).val, by rw [show cfg0.N = 16 from N_0]; exact h0⟩, rfl⟩
  obtain ⟨e0, e1, e2⟩ := idx_out t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 128 ≤ (i 2).val ∧ (i 2).val < win0_9.index t (2 : Fin 3) * 128 + 128; omega

/-! ## The array after the run -/

/-- The result array ends holding the specification's partial results of the three arguments as launched. -/
theorem arrAt9 (hout : OutValAt) (m : (ℓ : Loc nD τ sig) → Buf (Elt Ideal) ℓ) (c : Dev nD) :
    (dats (F := Ideal) m 0 c).arrAt 9 cfg0.N
      = Cert.Spec.parts (m ((c : Thread nD τ).loc main_arg0)) (m ((c : Thread nD τ).loc main_arg1)) (m ((c : Thread nD τ).loc main_arg2)) :=
  (dats (F := Ideal) m 0 c).arrAt_eq_of_cover 9 (Cert.Spec.parts (argX m c) (argR m c) (argM m c))
    (fun t _ => flushed9_eq m hout c t) cover9

end Cert.KernelIdeal.HandValue

end
-- ==== Proof.Bridge.lean ====
/-
  The two results are one number. The kernel's program ends with  (0 + Σ over the [16, 1, 128] partial results) / 131072,
  the reference with  (0 + Σ over the [131072, 128] terms) / 131072; the partial results are the specification's
  `parts`, the reference's products its `terms`, and the two totals agree by re-association of the sum.
-/
import proofs.«104884_g7499012899433_feedfinal_73_15_alg».proof.Proof.Ref.Value
import proofs.«104884_g7499012899433_feedfinal_73_15_alg».proof.Proof.SpecSum
import proofs.«104884_g7499012899433_feedfinal_73_15_alg».proof.Proof.KI.Launch
import proofs.«104884_g7499012899433_feedfinal_73_15_alg».proof.Proof.KI.OutVal
import proofs.«104884_g7499012899433_feedfinal_73_15_alg».proof.Proof.KI.Final
import Idealize.ShloMosaic.PureOps.Ideal.Laws

noncomputable section

namespace Cert.Proof.Bridge

open Idealize.ShloMosaic Idealize.ShloMosaic.TcCoe Idealize.SL.Sem

/-- A host sum over every axis, at the ideal values: the initial value plus the sum of all entries. -/
theorem reduceAdd_all {s : Shape} {axes : List (Fin s.rank)} (h' : s.ReducesTo axes Cert.KernelIdeal.S_) (hS : 0 < Cert.KernelIdeal.S_.numel)
    (A : FVec Ideal s .f32) (z : FVec Ideal Cert.KernelIdeal.S_ .f32) :
    Host.reduceAdd (F := Ideal) A z h' hS = fun _ => z (Shape.Idx.first hS) + ∑ j : s.Idx, A j := by
  funext i
  simp only [Host.reduceAdd, Ideal.hostReduceAdd_def]
  exact Ideal.hostReduceAdd_total h' (fun b => b.elim0) A _ i

/-- The reference's result term is the kernel's host tail applied to the specification's partial results. -/
theorem result_eq (X R : (⟨Cert.ReferenceIdeal.S131072x128, .f32⟩ : BufTy).Contents (Elt Ideal))
    (M : (⟨Cert.ReferenceIdeal.S128x128, .f32⟩ : BufTy).Contents (Elt Ideal)) :
    Cert.ReferenceIdeal.Read.val_main_v18 (F := Ideal) X R M = Cert.KernelIdeal.Hand.tailVal (F := Ideal) (Cert.Spec.parts X R M) := by
  unfold Cert.ReferenceIdeal.Read.val_main_v18 Cert.ReferenceIdeal.Read.val_main_v17 Cert.KernelIdeal.Hand.tailVal
  rw [Cert.ReferenceIdeal.RefValue.ref_terms]
  unfold Cert.ReferenceIdeal.Read.val_main_cst_3 Cert.ReferenceIdeal.Read.val_main_cst_4
  rw [reduceAdd_all, reduceAdd_all, Cert.Spec.total_eq]

end Cert.Proof.Bridge

end
-- ==== Proof.lean ====
/- The proof of `Cert.Claim`: the kernel's fused isometric loss against its jnp reference, over the extended reals.

   Both programs compute  (Σ_n Σ_j r[n, j] · max((‖x_n‖² + ‖μ_j‖²) − 2 · (x_n · μ_j), 0)) / 131072  for 131072 points,
   128 centres. The kernel streams X and r in sixteen grid steps of four 2048-row sub-blocks — each array handed to
   the pipeline through four windows, each window holding a quarter share of it —, leaves sixteen row vectors of
   128 partial sums, and sums them on the host; the reference sums all 131072·128 terms at once. The two totals
   agree because addition of extended reals is commutative and associative: no finiteness is used.

   Modules: Spec (the specification), SpecBlock (one sub-block's column sum), SpecSum (the two totals agree),
   Ref/Value (the reference's products are the specification's terms), K/* and KI/* (the word-level and the
   idealized kernel program, one text: the proof data, the body's triple, the entry and the host tail, the run),
   KI/OutVal and KI/Final (the stored value at an index; the partial results as one array), Bridge (the two
   results are one number). -/
import proofs.«104884_g7499012899433_feedfinal_73_15_alg».proof.Defs
import proofs.«104884_g7499012899433_feedfinal_73_15_alg».proof.Proof.Gen.Kernel
import proofs.«104884_g7499012899433_feedfinal_73_15_alg».proof.Proof.Gen.KernelIdeal
import proofs.«104884_g7499012899433_feedfinal_73_15_alg».proof.Proof.Gen.ReferenceIdeal
import proofs.«104884_g7499012899433_feedfinal_73_15_alg».proof.Proof.Gen.Pre_finite_inputs
import proofs.«104884_g7499012899433_feedfinal_73_15_alg».proof.Proof.Gen.ReferenceIdeal.Run
import proofs.«104884_g7499012899433_feedfinal_73_15_alg».proof.Proof.Gen.ReferenceIdeal.Read
import proofs.«104884_g7499012899433_feedfinal_73_15_alg».proof.Proof.K.Launch
import proofs.«104884_g7499012899433_feedfinal_73_15_alg».proof.Proof.KI.Launch
import proofs.«104884_g7499012899433_feedfinal_73_15_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_p : Cert.frame_Kernel := fun m ρ _ => Cert.Kernel.Hand.frame (F := Bits) m ρ

/-- So does the idealized kernel program. -/
theorem frame_pi : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's program ends at the host tail's value of the partial results, which are the
    specification's; the reference's run ends at the same number. -/
theorem algebraic : Cert.algebraic_KernelIdeal_ReferenceIdeal := by
  intro m ρ m' ρ' _ hagree
  refine ⟨fun c => Cert.KernelIdeal.Hand.tailVal (F := Ideal)
    ((Cert.KernelIdeal.Hand.dats (F := Ideal) m 0 c).arrAt 9 Cert.KernelIdeal.cfg0.N), Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v18_eq]
  show _ = Cert.KernelIdeal.Hand.tailVal (F := Ideal)
    ((Cert.KernelIdeal.Hand.dats (F := Ideal) m 0 c).arrAt 9 Cert.KernelIdeal.cfg0.N)
  rw [Cert.KernelIdeal.HandValue.arrAt9 Cert.KernelIdeal.HandValue.outVal_at m c]
  exact Cert.Proof.Bridge.result_eq _ _ _

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
